-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S128x128 : Shape := ⟨2, ![128, 128]⟩
abbrev S128 : Shape := ⟨1, ![128]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x128x64x64 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4x128x64x64 : Shape := ⟨4, ![4, 128, 64, 64]⟩
abbrev S128x128 : Shape := ⟨2, ![128, 128]⟩
abbrev S128 : Shape := ⟨1, ![128]⟩
abbrev S4x128x4096 : Shape := ⟨3, ![4, 128, 4096]⟩
abbrev S128x1 : Shape := ⟨2, ![128, 1]⟩
abbrev S1x128x4096 : Shape := ⟨3, ![1, 128, 4096]⟩
abbrev S1x128x1024 : Shape := ⟨3, ![1, 128, 1024]⟩
abbrev S128x4096 : Shape := ⟨2, ![128, 4096]⟩
abbrev S128x1024 : Shape := ⟨2, ![128, 1024]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 13
  | .vmem => 12
  | .smem => 0
  | _ => 0

abbrev bufTy : (tb : Table) → Fin (tcTables nBuf tb) → BufTy
  | .hbm, ⟨0, _⟩ => ⟨S4x128x64x64, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x128x4096, .f32⟩
  | .hbm, ⟨8, _⟩ => ⟨S128x1, .f32⟩
  | .hbm, ⟨9, _⟩ => ⟨S128x1, .f32⟩
  | .hbm, ⟨10, _⟩ => ⟨S128x1, .f32⟩
  | .hbm, ⟨11, _⟩ => ⟨S4x128x4096, .f32⟩
  | .hbm, ⟨12, _⟩ => ⟨S4x128x64x64, .f32⟩
  | .local _ .vmem, ⟨0, _⟩ => ⟨S1x128x4096, .f32⟩
  | .local _ .vmem, ⟨1, _⟩ => ⟨S1x128x4096, .f32⟩
  | .local _ .vmem, ⟨2, _⟩ => ⟨S128x128, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x1, .f32⟩
  | .local _ .vmem, ⟨8, _⟩ => ⟨S1x128x1024, .f32⟩
  | .local _ .vmem, ⟨9, _⟩ => ⟨S1x128x1024, .f32⟩
  | .local _ .vmem, ⟨10, _⟩ => ⟨S128x4096, .bf16⟩
  | .local _ .vmem, ⟨11, _⟩ => ⟨S128x4096, .bf16⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x128x64x64_S4x128x4096 : S4x128x64x64.ShapeCasts S4x128x4096
  shapeCasts_S128_S128x1 : S128.ShapeCasts S128x1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  h_S1x128x1024 : 0 < S1x128x1024.numel
  shapeCasts_S1x128x1024_S128x1024 : S1x128x1024.ShapeCasts S128x1024
  broadcasts_S128x1_S128x1024 : S128x1.Broadcasts S128x1024
  inb_S128x4096_S128x1024_0_0 : ∀ a, (![0, 0] : Fin 2 → Nat) a + S128x1024.size a ≤ S128x4096.size a
  h_S128x1024 : 0 < S128x1024.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  inb_S128x4096_S128x1024_0_1024 : ∀ a, (![0, 1024] : Fin 2 → Nat) a + S128x1024.size a ≤ S128x4096.size a
  inb_S128x4096_S128x1024_0_2048 : ∀ a, (![0, 2048] : Fin 2 → Nat) a + S128x1024.size a ≤ S128x4096.size a
  inb_S128x4096_S128x1024_0_3072 : ∀ a, (![0, 3072] : Fin 2 → Nat) a + S128x1024.size a ≤ S128x4096.size a
  transposes_S1024x128_p1_0_S128x1024 : S1024x128.Transposes [1, 0] S128x1024
  inb_S1x128x1024_S1x128x1024_0_0_0 : ∀ a, (![0, 0, 0] : Fin 3 → Nat) a + S1x128x1024.size a ≤ S1x128x1024.size a
  shapeCasts_S128x1024_S1x128x1024 : S128x1024.ShapeCasts S1x128x1024
  shapeCasts_S4x128x4096_S4x128x64x64 : S4x128x4096.ShapeCasts S4x128x64x64
  dot_S128x128_S128x4096_S128x4096_1_0_0_1_n_n_wf : DotDims.WF S128x128 S128x4096 S128x4096 [1] [0] [0] [1] [] []
  dot_S128x128_S128x1024_S128x1024_1_0_0_1_n_n_wf : DotDims.WF S128x128 S128x1024 S128x1024 [1] [0] [0] [1] [] []
  dot_S128x1024_S128x1024_S1024x1024_0_0_1_1_n_n_wf : DotDims.WF S128x1024 S128x1024 S1024x1024 [0] [0] [1] [1] [] []
  dot_S1024x1024_S128x1024_S1024x128_1_1_0_0_n_n_wf : DotDims.WF S1024x1024 S128x1024 S1024x128 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x128x1024.size a ≤ S1x128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x128x4096.size a
  hwx0_0 : ∀ i : grid0.Coords, EltTy.bits .f32 = 32 ∨ (Rect.block (s := S4x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1024.size a ≤ S4x128x4096.size a
  hwx0_7 : ∀ i : grid0.Coords, EltTy.bits .f32 = 32 ∨ (Rect.block (s := S4x128x4096) S1x128x1024.size (cc0_transform_7 i) (hinb0_7 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x128x64x64 : Shape := ⟨4, ![4, 128, 64, 64]⟩
abbrev S128x128 : Shape := ⟨2, ![128, 128]⟩
abbrev S128 : Shape := ⟨1, ![128]⟩
abbrev S4x128x4096 : Shape := ⟨3, ![4, 128, 4096]⟩
abbrev S4x4096x128 : Shape := ⟨3, ![4, 4096, 128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x128x4096, .f32⟩
  | .hbm, ⟨8, _⟩ => ⟨S4x4096x128, .f32⟩
  | .hbm, ⟨9, _⟩ => ⟨S4x4096x128, .f32⟩
  | .hbm, ⟨10, _⟩ => ⟨S1x1x128, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S1x1x128, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S1x1x128, .f32⟩
  | .hbm, ⟨19, _⟩ => ⟨S4x4096x128, .f32⟩
  | .hbm, ⟨20, _⟩ => ⟨S4x4096x128, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x128, .f32⟩
  | .hbm, ⟨40, _⟩ => ⟨S4x128x4096, .f32⟩
  | .hbm, ⟨41, _⟩ => ⟨S4x128x64x64, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  transposes_S4x128x4096_S4x4096x128_0_2_1 : S4x128x4096.Transposes [0, 2, 1] S4x4096x128
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x128_S4x128x4096_0_2_1 : S4x4096x128.Transposes [0, 2, 1] S4x128x4096
  shapeCasts_S4x128x4096_S4x128x64x64 : S4x128x4096.ShapeCasts S4x128x64x64
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.TileDef.lean ====
/-
  The kernel body's output tile as ONE function of what it loads: the query tile of `x` (128 channels × 1024 positions),
  the query weight and bias, and the four 1024-key chunks of the projected keys and values it reads from its two scratch
  arrays. It is the body's pure terms composed in program order: the scaled query projection, then for each chunk the
  scores, the running maximum, the rescaling factor, the weights, the running denominator and numerator, and at the end
  the quotient, transposed to channels × positions.
-/
import proofs.«402231_j36112085024790_3_alg».proof.Proof.Gen.KernelIdeal.Skeleton

noncomputable section

namespace Cert.KernelIdeal.Tile

open Idealize.ShloMosaic Cert.KernelIdeal Cert.KernelIdeal.Gen

variable {F : FTy → Type} [FloatOps F]

/-- The output tile from the loaded values. `K c`, `V c`: chunk `c` of the projected keys and values, channels × keys. -/
def tile (xq : Vec F S1x128x1024 .f32) (wq : Vec F S128x128 .f32) (bq : Vec F S128x1 .f32)
    (K0 K1 K2 K3 V0 V1 V2 V3 : Vec F S128x1024 .bf16) : FVec F S1x128x1024 .f32 :=
  k0_pay1 (k0_pay5 xq wq bq)
    (k0_pay18 (k0_pay5 xq wq bq) (k0_pay7 (F := F)) V0 (k0_pay9 xq wq bq K0) (k0_pay10 xq wq bq K0) (k0_pay11 xq wq bq K0) K1 V1)
    (k0_pay20 (k0_pay5 xq wq bq) (k0_pay9 xq wq bq K0) K1 K2)
    (k0_pay21 (k0_pay5 xq wq bq) (k0_pay9 xq wq bq K0) K1 K2)
    (k0_pay23 (k0_pay5 xq wq bq) (k0_pay9 xq wq bq K0) (k0_pay12 xq wq bq K0) (k0_pay13 xq wq bq K0) K1 K2)
    (k0_pay24 (k0_pay5 xq wq bq) (k0_pay9 xq wq bq K0) K1 K2 V2)
    K3 V3

end Cert.KernelIdeal.Tile

end
-- ==== Proof.Pieces.lean ====
/-
  What one run of the kernel body leaves behind, as values of what it loaded.

  At the first query tile of a batch the body stores the projected keys and values of the whole batch into its two
  scratch arrays (one covering store each) and then reads them back chunk by chunk; at the other tiles it only reads
  what the earlier point left there. Either way the output buffer receives ONE covering store: the tile function of
  the query tile of `x` (the columns `1024·qi … 1024·qi + 1023` of the batch's block), the query weight and bias, and
  the four 1024-column chunks of each scratch array.
-/
import proofs.«402231_j36112085024790_3_alg».proof.Proof.Gen.KernelIdeal.Frame
import proofs.«402231_j36112085024790_3_alg».proof.Proof.TileDef
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Idealize.ShloMosaic.Pipeline (Dat)
open Cert.KernelIdeal Cert.KernelIdeal.Gen Cert.KernelIdeal.Tile

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The query tile: the 1024 columns of the batch's block of `x` that the point's second coordinate names. -/
abbrev qtile (i : grid0.Coords) (x0 : Vec F S1x128x4096 .f32) : Vec F S1x128x1024 .f32 :=
  View.ld x0 (Rect.unit (s := S1x128x4096) (k0_off1 i) S1x128x1024.size (k0_off1_inb i))

/-- The four 1024-column chunks of a scratch array's contents. -/
abbrev ch0 (X : Vec F S128x4096 .bf16) : Vec F S128x1024 .bf16 :=
  View.ld X (Rect.unit (s := S128x4096) ![0, 0] S128x1024.size inb_S128x4096_S128x1024_0_0)
abbrev ch1 (X : Vec F S128x4096 .bf16) : Vec F S128x1024 .bf16 :=
  View.ld X (Rect.unit (s := S128x4096) ![0, 1024] S128x1024.size inb_S128x4096_S128x1024_0_1024)
abbrev ch2 (X : Vec F S128x4096 .bf16) : Vec F S128x1024 .bf16 :=
  View.ld X (Rect.unit (s := S128x4096) ![0, 2048] S128x1024.size inb_S128x4096_S128x1024_0_2048)
abbrev ch3 (X : Vec F S128x4096 .bf16) : Vec F S128x1024 .bf16 :=
  View.ld X (Rect.unit (s := S128x4096) ![0, 3072] S128x1024.size inb_S128x4096_S128x1024_0_3072)

/-- The tile function over whole scratch contents. -/
abbrev tileOf (i : grid0.Coords) (x0 : Vec F S1x128x4096 .f32) (x1 : Vec F S128x128 .f32) (x2 : Vec F S128x1 .f32)
    (KT VT : Vec F S128x4096 .bf16) : Vec F S1x128x1024 .f32 :=
  tile (qtile i x0) x1 x2 (ch0 KT) (ch1 KT) (ch2 KT) (ch3 KT) (ch0 VT) (ch1 VT) (ch2 VT) (ch3 VT)

/-- At a later tile of a batch the output buffer receives the tile function of the scratch contents found. -/
theorem out_B (c : Dev nD) (i : grid0.Coords) (arg2 : Memref sig .tc .vmem S1x128x4096 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128x1024 .f32) (harg9 : arg9.IsWhole) (arg10 : Memref sig .tc .vmem S128x4096 .bf16) (harg10 : arg10.IsWhole) (arg11 : Memref sig .tc .vmem S128x4096 .bf16) (harg11 : arg11.IsWhole) (hc0 : ¬cond0_0 i)
    (x0 : Vec F S1x128x4096 .f32) (x1 : Vec F S128x128 .f32) (x2 : Vec F S128x1 .f32) (x3 : Vec F S128x128 .f32) (x4 : Vec F S128x1 .f32) (x5 : Vec F S128x128 .f32) (x6 : Vec F S128x1 .f32) (xs0 xs1 : Vec F S128x4096 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = tileOf i x0 x1 x2 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg10.read_unread, harg11.read_unread,
    View.ld_unit_zero (S := S128x128) hz2, View.ld_unit_zero (S := S128x1) hz2]
  rfl

/-- At the first tile of a batch the first scratch array receives the projected keys of the batch's whole block. -/
theorem scratchK_A (c : Dev nD) (i : grid0.Coords) (arg2 : Memref sig .tc .vmem S1x128x4096 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128x1024 .f32) (harg9 : arg9.IsWhole) (arg10 : Memref sig .tc .vmem S128x4096 .bf16) (harg10 : arg10.IsWhole) (arg11 : Memref sig .tc .vmem S128x4096 .bf16) (harg11 : arg11.IsWhole) (hc0 : cond0_0 i)
    (x0 : Vec F S1x128x4096 .f32) (x1 : Vec F S128x128 .f32) (x2 : Vec F S128x1 .f32) (x3 : Vec F S128x128 .f32) (x4 : Vec F S128x1 .f32) (x5 : Vec F S128x128 .f32) (x6 : Vec F S128x1 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x128x4096) hz3, View.ld_unit_zero (S := S128x128) hz2, View.ld_unit_zero (S := S128x1) hz2]

/-- … and the second the projected values. -/
theorem scratchV_A (c : Dev nD) (i : grid0.Coords) (arg2 : Memref sig .tc .vmem S1x128x4096 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128x1024 .f32) (harg9 : arg9.IsWhole) (arg10 : Memref sig .tc .vmem S128x4096 .bf16) (harg10 : arg10.IsWhole) (arg11 : Memref sig .tc .vmem S128x4096 .bf16) (harg11 : arg11.IsWhole) (hc0 : cond0_0 i)
    (x0 : Vec F S1x128x4096 .f32) (x1 : Vec F S128x128 .f32) (x2 : Vec F S128x1 .f32) (x3 : Vec F S128x128 .f32) (x4 : Vec F S128x1 .f32) (x5 : Vec F S128x128 .f32) (x6 : Vec F S128x1 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg7.read_unread, harg8.read_unread,
    View.ld_unit_zero (S := S1x128x4096) hz3, View.ld_unit_zero (S := S128x128) hz2, View.ld_unit_zero (S := S128x1) hz2]

/-- A load through a rectangle of a scratch array that ONE covering store has just filled reads the stored value
    through that rectangle. -/
theorem readCov_whole {sig : RefSig} {κ : Kind} {sp : Space} (v : View sig κ sp S128x4096 .bf16)
    (inb : ∀ a, (![0, 0] : Fin 2 → Nat) a + S128x4096.size a ≤ S128x4096.size a) (w : S128x4096.Idx → Elt F .bf16)
    (r : Rect S128x4096) :
    v.readCov [(⟨Rect.unit ![0, 0] S128x4096.size inb, w⟩ : View.Piece (Elt F) S128x4096 .bf16)] r.toLoadRect = View.ld w r := by
  rw [View.readCov_eq_canon_ld _ _ _ (fun y => ⟨_, List.mem_singleton_self _, View.mem_set_unit_zero hz2 inb y⟩),
    View.canon_unit_zero hz2]

/-- At the first tile of a batch the output buffer receives the tile function of the projections just stored. -/
theorem out_A (c : Dev nD) (i : grid0.Coords) (arg2 : Memref sig .tc .vmem S1x128x4096 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S1x128x1024 .f32) (harg9 : arg9.IsWhole) (arg10 : Memref sig .tc .vmem S128x4096 .bf16) (harg10 : arg10.IsWhole) (arg11 : Memref sig .tc .vmem S128x4096 .bf16) (harg11 : arg11.IsWhole) (hc0 : cond0_0 i)
    (x0 : Vec F S1x128x4096 .f32) (x1 : Vec F S128x128 .f32) (x2 : Vec F S128x1 .f32) (x3 : Vec F S128x128 .f32) (x4 : Vec F S128x1 .f32) (x5 : Vec F S128x128 .f32) (x6 : Vec F S128x1 .f32) :
    out0_A_7 c i arg2 harg2 arg3 harg3 arg4 harg4 arg5 harg5 arg6 harg6 arg7 harg7 arg8 harg8 arg9 harg9 arg10 harg10 arg11 harg11 hc0 x0 x1 x2 x3 x4 x5 x6 = tileOf i x0 x1 x2 (k0_pay3 x0 x3 x4) (k0_pay4 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread,
    harg4.read_unread, harg5.read_unread, harg6.read_unread, harg7.read_unread, harg8.read_unread,
    View.ld_unit_zero (S := S1x128x4096) hz3, View.ld_unit_zero (S := S128x128) hz2, View.ld_unit_zero (S := S128x1) hz2]
  rw [readCov_whole arg10.view inb_S128x4096_S128x4096_0_0 (k0_pay3 x0 x3 x4) (Rect.unit ![0, 0] ![128, 1024] inb_S128x4096_S128x1024_0_0),
    readCov_whole arg10.view inb_S128x4096_S128x4096_0_0 (k0_pay3 x0 x3 x4) (Rect.unit ![0, 1024] ![128, 1024] inb_S128x4096_S128x1024_0_1024),
    readCov_whole arg10.view inb_S128x4096_S128x4096_0_0 (k0_pay3 x0 x3 x4) (Rect.unit ![0, 2048] ![128, 1024] inb_S128x4096_S128x1024_0_2048),
    readCov_whole arg10.view inb_S128x4096_S128x4096_0_0 (k0_pay3 x0 x3 x4) (Rect.unit ![0, 3072] ![128, 1024] inb_S128x4096_S128x1024_0_3072),
    readCov_whole arg11.view inb_S128x4096_S128x4096_0_0 (k0_pay4 x0 x5 x6) (Rect.unit ![0, 0] ![128, 1024] inb_S128x4096_S128x1024_0_0),
    readCov_whole arg11.view inb_S128x4096_S128x4096_0_0 (k0_pay4 x0 x5 x6) (Rect.unit ![0, 1024] ![128, 1024] inb_S128x4096_S128x1024_0_1024),
    readCov_whole arg11.view inb_S128x4096_S128x4096_0_0 (k0_pay4 x0 x5 x6) (Rect.unit ![0, 2048] ![128, 1024] inb_S128x4096_S128x1024_0_2048),
    readCov_whole arg11.view inb_S128x4096_S128x4096_0_0 (k0_pay4 x0 x5 x6) (Rect.unit ![0, 3072] ![128, 1024] inb_S128x4096_S128x1024_0_3072)]
  rfl

end Cert.KernelIdeal.Pieces

end
-- ==== Proof.Spec.lean ====
/-
  Attention over the extended reals, as the two programs spell it, for one query row.

  Inputs, by coordinates: `x b c n` (batch, channel, position; 4 × 128 × 4096), three 128 × 128 weight matrices `W d c`
  and three bias vectors `b d`. A projection of position `n` onto output channel `d` is `∑ c, W d c · x b c n + b d`.

  The reference's spelling (`rout`): scores `s i j = (∑ e, q i e · k j e) · σ`, the row maximum `M i`, weights
  `exp (s i j − M i)` divided by their row sum, and the weighted sum of the value projections.

  The kernel's spelling (`kout`): the scale `σ` folded into the query projection, and the row treated in four chunks of
  1024 keys by the running-softmax recurrence (`step`): a running maximum `m`, a running denominator `l` and a running
  numerator `acc`, each rescaled by `exp (m_old − m_new)` when the maximum moves; the quotient is taken once at the end.

  `kout_eq_rout`: on finite inputs the two agree. Over the reals the recurrence telescopes to
  `∑ j, exp (s j − m₃) · v j / ∑ j, exp (s j − m₃)`, and a softmax does not depend on the shift subtracted in the
  exponent, so neither spelling depends on which maximum it used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The float words both programs use: `-∞`, `0`, `1` and the scale `128^(-1/2)` rounded to f32. -/
abbrev NEG : EReal := Ideal.ofBits .f32 0xFF800000#32
abbrev ZERO : EReal := Ideal.ofBits .f32 0x00000000#32
abbrev ONE : EReal := Ideal.ofBits .f32 0x3F800000#32
abbrev SC : EReal := Ideal.ofBits .f32 0x3DB504F3#32

/-- Key `j` of chunk `c` is key `1024 c + j` of the row. -/
def pos (c : Fin 4) (j : Fin 1024) : Fin 4096 := ⟨1024 * c.val + j.val, by have := c.isLt; have := j.isLt; omega⟩

/-- The running softmax of one query row: maximum, denominator, numerator per output channel. -/
structure St where
  m : EReal
  l : EReal
  acc : Fin 128 → EReal

/-- Before the first chunk: maximum `-∞`, denominator and numerators `0`. -/
def init : St := ⟨NEG, ZERO, fun _ => ZERO⟩

/-- One chunk: scores `S j` of its 1024 keys, values `V d j`. The chunk's maximum is folded from `-∞`. -/
def step (s : St) (S : Fin 1024 → EReal) (V : Fin 128 → Fin 1024 → EReal) : St where
  m := max s.m ((Finset.univ : Finset (Fin 1024)).fold max NEG S)
  l := s.l * Ideal.exp (s.m - max s.m ((Finset.univ : Finset (Fin 1024)).fold max NEG S))
        + ∑ j : Fin 1024, Ideal.exp (S j - max s.m ((Finset.univ : Finset (Fin 1024)).fold max NEG S))
  acc := fun d => s.acc d * Ideal.exp (s.m - max s.m ((Finset.univ : Finset (Fin 1024)).fold max NEG S))
        + ∑ j : Fin 1024, Ideal.exp (S j - max s.m ((Finset.univ : Finset (Fin 1024)).fold max NEG S)) * V d j

/-- The four chunks in order. -/
def run4 (S : Fin 4 → Fin 1024 → EReal) (V : Fin 4 → Fin 128 → Fin 1024 → EReal) : St :=
  step (step (step (step init (S 0) (V 0)) (S 1) (V 1)) (S 2) (V 2)) (S 3) (V 3)

/-- The quotient taken once at the end: numerator times `1 / l`. -/
def fin (s : St) (d : Fin 128) : EReal := s.acc d * Ideal.div ONE s.l

/-- The inputs by coordinates. -/
abbrev XT : Type := Fin 4 → Fin 128 → Fin 4096 → EReal
abbrev WT : Type := Fin 128 → Fin 128 → EReal
abbrev BT : Type := Fin 128 → EReal

/-- The kernel's projection: weight on the left. -/
def kproj (x : XT) (W : WT) (b : BT) (bt : Fin 4) (d : Fin 128) (n : Fin 4096) : EReal :=
  (∑ c : Fin 128, W d c * x bt c n) + b d

/-- The kernel's result at batch `bt`, channel `d`, position `n`. -/
def kout (x : XT) (Wq : WT) (bq : BT) (Wk : WT) (bk : BT) (Wv : WT) (bv : BT) (bt : Fin 4) (d : Fin 128) (n : Fin 4096) : EReal :=
  fin (run4 (fun c j => ∑ e : Fin 128, (kproj x Wq bq bt e n * SC) * kproj x Wk bk bt e (pos c j))
            (fun c e j => kproj x Wv bv bt e (pos c j))) d

/-- The reference's projection: weight on the right. -/
def rproj (x : XT) (W : WT) (b : BT) (bt : Fin 4) (n : Fin 4096) (d : Fin 128) : EReal :=
  (∑ c : Fin 128, x bt c n * W d c) + b d

/-- The reference's score of query `i` against key `j`. -/
def rscore (x : XT) (Wq : WT) (bq : BT) (Wk : WT) (bk : BT) (bt : Fin 4) (i j : Fin 4096) : EReal :=
  (∑ e : Fin 128, rproj x Wq bq bt i e * rproj x Wk bk bt j e) * SC

/-- The reference's row maximum: `-∞` against the fold from `-∞`. -/
def rmax (x : XT) (Wq : WT) (bq : BT) (Wk : WT) (bk : BT) (bt : Fin 4) (i : Fin 4096) : EReal :=
  max NEG ((Finset.univ : Finset (Fin 4096)).fold max NEG (rscore x Wq bq Wk bk bt i))

/-- The reference's unnormalised weight. -/
def rexp (x : XT) (Wq : WT) (bq : BT) (Wk : WT) (bk : BT) (bt : Fin 4) (i j : Fin 4096) : EReal :=
  Ideal.exp (rscore x Wq bq Wk bk bt i j - rmax x Wq bq Wk bk bt i)

/-- The reference's row sum, from `0`. -/
def rden (x : XT) (Wq : WT) (bq : BT) (Wk : WT) (bk : BT) (bt : Fin 4) (i : Fin 4096) : EReal :=
  ZERO + ∑ j : Fin 4096, rexp x Wq bq Wk bk bt i j

/-- The reference's result at batch `bt`, channel `d`, position `n`. -/
def rout (x : XT) (Wq : WT) (bq : BT) (Wk : WT) (bk : BT) (Wv : WT) (bv : BT) (bt : Fin 4) (d : Fin 128) (n : Fin 4096) : EReal :=
  ∑ j : Fin 4096, Ideal.div (rexp x Wq bq Wk bk bt n j) (rden x Wq bq Wk bk bt n) * rproj x Wv bv bt j d

/-- The argument arrays read by coordinates: the image `x` with its two trailing axes merged (position `n` is row
    `n / 64`, column `n % 64`), a weight matrix, a bias vector. -/
def X3 (x0 : (⟨4, ![4, 128, 64, 64]⟩ : Shape).Idx → EReal) : XT := fun bt c n =>
  x0 (ix4 bt c (⟨n.val / 64, by have := n.isLt; omega⟩ : Fin 64) (⟨n.val % 64, Nat.mod_lt _ (by decide)⟩ : Fin 64))
def M2 (w : (⟨2, ![128, 128]⟩ : Shape).Idx → EReal) : WT := fun d c => w (ix2 d c)
def V1 (b : (⟨1, ![128]⟩ : Shape).Idx → EReal) : BT := fun d => b (ix1 d)

/-- An array of finite numbers. -/
def Fin1 (b : BT) : Prop := ∀ d, b d ≠ ⊥ ∧ b d ≠ ⊤
def Fin2 (W : WT) : Prop := ∀ d c, W d c ≠ ⊥ ∧ W d c ≠ ⊤
def Fin3 (x : XT) : Prop := ∀ bt c n, x bt c n ≠ ⊥ ∧ x bt c n ≠ ⊤

end Cert.Attn

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.KernelArrays.lean ====
/-
  The arrays the kernel's region finds, and the blocks its windows read of them, by coordinates.

  Before the region the program reshapes `x` to batch × channel × position and each bias vector to a column. Window 0
  at grid point `t = 4·b + qi` reads batch `b`'s whole block of `x`; the weight and bias windows read their whole
  arrays at every point.
-/
import proofs.«402231_j36112085024790_3_alg».proof.Proof.Gen.KernelIdeal.Frame
import proofs.«402231_j36112085024790_3_alg».proof.Proof.Spec
import proofs.«402231_j36112085024790_3_alg».proof.Proof.LibKeepdimsColumn
import Idealize.ShloMosaic.Lib.Pipeline.Value
import Idealize.ShloMosaic.Lib.StableHlo.Run
import Idealize.ShloMosaic.Lib.Tactic

set_option maxRecDepth 16384

noncomputable section

namespace Cert.KernelIdeal.KArr

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen

variable (m : (ℓ : Loc nD τ sig) → Buf (Elt Ideal) ℓ)

/-- The seven argument arrays on core `c`, by coordinates. -/
abbrev aX (c : Dev nD) : Cert.Attn.XT := Cert.Attn.X3 (m ((c : Thread nD τ).loc main_arg0))
abbrev aWq (c : Dev nD) : Cert.Attn.WT := Cert.Attn.M2 (m ((c : Thread nD τ).loc main_arg1))
abbrev abq (c : Dev nD) : Cert.Attn.BT := Cert.Attn.V1 (m ((c : Thread nD τ).loc main_arg2))
abbrev aWk (c : Dev nD) : Cert.Attn.WT := Cert.Attn.M2 (m ((c : Thread nD τ).loc main_arg3))
abbrev abk (c : Dev nD) : Cert.Attn.BT := Cert.Attn.V1 (m ((c : Thread nD τ).loc main_arg4))
abbrev aWv (c : Dev nD) : Cert.Attn.WT := Cert.Attn.M2 (m ((c : Thread nD τ).loc main_arg5))
abbrev abv (c : Dev nD) : Cert.Attn.BT := Cert.Attn.V1 (m ((c : Thread nD τ).loc main_arg6))

/-- The reshaped `x` as the region finds it. -/
theorem V_v0 (c : Dev nD) : (V m c main_v0 : S4x128x4096.Idx → EReal)
    = shapeCast S4x128x4096 (m ((c : Thread nD τ).loc main_arg0)) shapeCasts_S4x128x64x64_S4x128x4096 := by
  show StableHlo.after hostOps0 (fun b => m (c, b)) (Proc.devRef .tc main_v0) = _
  after_results
  rfl

/-- The three bias columns as the region finds them. -/
theorem V_v1 (c : Dev nD) : (V m c main_v1 : S128x1.Idx → EReal)
    = shapeCast S128x1 (m ((c : Thread nD τ).loc main_arg2)) shapeCasts_S128_S128x1 := by
  show StableHlo.after hostOps0 (fun b => m (c, b)) (Proc.devRef .tc main_v1) = _
  after_results
  rfl
theorem V_v2 (c : Dev nD) : (V m c main_v2 : S128x1.Idx → EReal)
    = shapeCast S128x1 (m ((c : Thread nD τ).loc main_arg4)) shapeCasts_S128_S128x1 := by
  show StableHlo.after hostOps0 (fun b => m (c, b)) (Proc.devRef .tc main_v2) = _
  after_results
  rfl
theorem V_v3 (c : Dev nD) : (V m c main_v3 : S128x1.Idx → EReal)
    = shapeCast S128x1 (m ((c : Thread nD τ).loc main_arg6)) shapeCasts_S128_S128x1 := by
  show StableHlo.after hostOps0 (fun b => m (c, b)) (Proc.devRef .tc main_v3) = _
  after_results
  rfl

/-- The reshaped `x` at (batch, channel, position): position `n` is row `n / 64`, column `n % 64` of the image. -/
theorem V_v0_apply (c : Dev nD) (bt : Fin 4) (cc : Fin 128) (n : Fin 4096) :
    (V m c main_v0 : S4x128x4096.Idx → EReal) (ix3 bt cc n) = aX m c bt cc n := by
  rw [V_v0]
  refine shapeCast_apply _ _ _ _ ?_
  show (S4x128x64x64.rowMajor _).val = (S4x128x4096.rowMajor _).val
  rw [Shape.rowMajor_val_four, Shape.rowMajor_val_three]
  have hn := n.isLt
  show ((bt.val * 128 + cc.val) * 64 + n.val / 64) * 64 + n.val % 64 = (bt.val * 128 + cc.val) * 4096 + n.val
  omega

/-- A bias column at (channel, 0). -/
theorem V_v1_apply (c : Dev nD) (e : Fin 128) : (V m c main_v1 : S128x1.Idx → EReal) (ix2 e (0 : Fin 1)) = abq m c e := by
  rw [V_v1]; exact Cert.LibKeepdimsColumn.shapeCast_a_a1_apply _ _ e 0
theorem V_v2_apply (c : Dev nD) (e : Fin 128) : (V m c main_v2 : S128x1.Idx → EReal) (ix2 e (0 : Fin 1)) = abk m c e := by
  rw [V_v2]; exact Cert.LibKeepdimsColumn.shapeCast_a_a1_apply _ _ e 0
theorem V_v3_apply (c : Dev nD) (e : Fin 128) : (V m c main_v3 : S128x1.Idx → EReal) (ix2 e (0 : Fin 1)) = abv m c e := by
  rw [V_v3]; exact Cert.LibKeepdimsColumn.shapeCast_a_a1_apply _ _ e 0

/-- The windows' blocks at a point, each at its literal type. -/
abbrev xblk (c : Dev nD) (t : Fin cfg0.N) : Vec Ideal S1x128x4096 .f32 := iblk m c 0 t
abbrev wqblk (c : Dev nD) (t : Fin cfg0.N) : Vec Ideal S128x128 .f32 := iblk m c 1 t
abbrev bqblk (c : Dev nD) (t : Fin cfg0.N) : Vec Ideal S128x1 .f32 := iblk m c 2 t
abbrev wkblk (c : Dev nD) (t : Fin cfg0.N) : Vec Ideal S128x128 .f32 := iblk m c 3 t
abbrev bkblk (c : Dev nD) (t : Fin cfg0.N) : Vec Ideal S128x1 .f32 := iblk m c 4 t
abbrev wvblk (c : Dev nD) (t : Fin cfg0.N) : Vec Ideal S128x128 .f32 := iblk m c 5 t
abbrev bvblk (c : Dev nD) (t : Fin cfg0.N) : Vec Ideal S128x1 .f32 := iblk m c 6 t

/-- The printed index maps, decided over the grid: window 0 and the output move with the batch `t / 4`, the output also
    with the tile `t % 4`; the weight and bias windows stay at block 0. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 4 ∧ win0_7.index t (1 : Fin 3) = 0 ∧ win0_7.index t (2 : Fin 3) = t.val % 4
    ∧ k0_off1 (grid0.coords t) = ![0, 0, 1024 * (t.val % 4)] :=
  (by decide +kernel : ∀ t : Fin grid0.N, _)

/-- Batch and tile of a point. -/
def bOf (t : Fin cfg0.N) : Fin 4 := ⟨t.val / 4, by have := t.isLt; have h : cfg0.N = 16 := N_0; omega⟩

/-- Window 0's block at (0, channel, position) is batch `t / 4` of `x`. -/
theorem xblk_apply (c : Dev nD) (t : Fin cfg0.N) (cc : Fin 128) (n : Fin 4096) :
    xblk m c t (ix3 (0 : Fin 1) cc n) = aX m c (bOf t) cc n := by
  rw [← V_v0_apply]
  unfold xblk iblk
  rw [View.read_apply]
  show V m c main_v0 _ = V m c main_v0 _
  congr 1
  obtain ⟨e0, e1, e2, -⟩ := idx_facts t
  funext a; apply Fin.ext
  match a with
  | ⟨0, _⟩ => show win0_0.index t (0 : Fin 3) * 1 + 1 * 0 = t.val / 4; omega
  | ⟨1, _⟩ => show win0_0.index t (1 : Fin 3) * 128 + 1 * cc.val = cc.val; omega
  | ⟨2, _⟩ => show win0_0.index t (2 : Fin 3) * 4096 + 1 * n.val = n.val; omega

/-- Window 1's block is the whole weight matrix. -/
theorem wqblk_apply (c : Dev nD) (t : Fin cfg0.N) (e cc : Fin 128) :
    wqblk m c t (ix2 e cc) = aWq m c e cc := by
  unfold wqblk iblk
  rw [View.read_apply]
  show V m c main_arg1 _ = m ((c : Thread nD τ).loc main_arg1) (ix2 e cc)
  rw [V_main_arg1]
  congr 1
  obtain ⟨-, -, -, e10, e11, e20, e21, e30, e31, e40, e41, e50, e51, e60, e61, -⟩ := idx_facts t
  funext a; apply Fin.ext
  match a with
  | ⟨0, _⟩ => show win0_1.index t (0 : Fin 2) * 128 + 1 * e.val = e.val; omega
  | ⟨1, _⟩ => show win0_1.index t (1 : Fin 2) * 128 + 1 * cc.val = cc.val; omega

/-- Window 2's block is the whole bias column. -/
theorem bqblk_apply (c : Dev nD) (t : Fin cfg0.N) (e : Fin 128) :
    bqblk m c t (ix2 e (0 : Fin 1)) = abq m c e := by
  rw [← V_v1_apply]
  unfold bqblk iblk
  rw [View.read_apply]
  show V m c main_v1 _ = V m c main_v1 _
  congr 1
  obtain ⟨-, -, -, e10, e11, e20, e21, e30, e31, e40, e41, e50, e51, e60, e61, -⟩ := idx_facts t
  funext a; apply Fin.ext
  match a with
  | ⟨0, _⟩ => show win0_2.index t (0 : Fin 2) * 128 + 1 * e.val = e.val; omega
  | ⟨1, _⟩ => show win0_2.index t (1 : Fin 2) * 1 + 1 * 0 = 0; omega

/-- Window 3's block is the whole weight matrix. -/
theorem wkblk_apply (c : Dev nD) (t : Fin cfg0.N) (e cc : Fin 128) :
    wkblk m c t (ix2 e cc) = aWk m c e cc := by
  unfold wkblk iblk
  rw [View.read_apply]
  show V m c main_arg3 _ = m ((c : Thread nD τ).loc main_arg3) (ix2 e cc)
  rw [V_main_arg3]
  congr 1
  obtain ⟨-, -, -, e10, e11, e20, e21, e30, e31, e40, e41, e50, e51, e60, e61, -⟩ := idx_facts t
  funext a; apply Fin.ext
  match a with
  | ⟨0, _⟩ => show win0_3.index t (0 : Fin 2) * 128 + 1 * e.val = e.val; omega
  | ⟨1, _⟩ => show win0_3.index t (1 : Fin 2) * 128 + 1 * cc.val = cc.val; omega

/-- Window 4's block is the whole bias column. -/
theorem bkblk_apply (c : Dev nD) (t : Fin cfg0.N) (e : Fin 128) :
    bkblk m c t (ix2 e (0 : Fin 1)) = abk m c e := by
  rw [← V_v2_apply]
  unfold bkblk iblk
  rw [View.read_apply]
  show V m c main_v2 _ = V m c main_v2 _
  congr 1
  obtain ⟨-, -, -, e10, e11, e20, e21, e30, e31, e40, e41, e50, e51, e60, e61, -⟩ := idx_facts t
  funext a; apply Fin.ext
  match a with
  | ⟨0, _⟩ => show win0_4.index t (0 : Fin 2) * 128 + 1 * e.val = e.val; omega
  | ⟨1, _⟩ => show win0_4.index t (1 : Fin 2) * 1 + 1 * 0 = 0; omega

/-- Window 5's block is the whole weight matrix. -/
theorem wvblk_apply (c : Dev nD) (t : Fin cfg0.N) (e cc : Fin 128) :
    wvblk m c t (ix2 e cc) = aWv m c e cc := by
  unfold wvblk iblk
  rw [View.read_apply]
  show V m c main_arg5 _ = m ((c : Thread nD τ).loc main_arg5) (ix2 e cc)
  rw [V_main_arg5]
  congr 1
  obtain ⟨-, -, -, e10, e11, e20, e21, e30, e31, e40, e41, e50, e51, e60, e61, -⟩ := idx_facts t
  funext a; apply Fin.ext
  match a with
  | ⟨0, _⟩ => show win0_5.index t (0 : Fin 2) * 128 + 1 * e.val = e.val; omega
  | ⟨1, _⟩ => show win0_5.index t (1 : Fin 2) * 128 + 1 * cc.val = cc.val; omega

/-- Window 6's block is the whole bias column. -/
theorem bvblk_apply (c : Dev nD) (t : Fin cfg0.N) (e : Fin 128) :
    bvblk m c t (ix2 e (0 : Fin 1)) = abv m c e := by
  rw [← V_v3_apply]
  unfold bvblk iblk
  rw [View.read_apply]
  show V m c main_v3 _ = V m c main_v3 _
  congr 1
  obtain ⟨-, -, -, e10, e11, e20, e21, e30, e31, e40, e41, e50, e51, e60, e61, -⟩ := idx_facts t
  funext a; apply Fin.ext
  match a with
  | ⟨0, _⟩ => show win0_6.index t (0 : Fin 2) * 128 + 1 * e.val = e.val; omega
  | ⟨1, _⟩ => show win0_6.index t (1 : Fin 2) * 1 + 1 * 0 = 0; omega

end Cert.KernelIdeal.KArr

end
-- ==== Proof.KernelPoints.lean ====
/-
  What the output buffer and the two scratch arrays hold after each grid point, as values of the windows' blocks.

  At a point with `t % 4 = 0` (the first query tile of a batch) the scratch arrays receive the projected keys and values
  of the batch's block of `x`; at the other points they keep what the point before left. At every point the output
  buffer receives the tile function of the scratch contents in force.
-/
import proofs.«402231_j36112085024790_3_alg».proof.Proof.Pieces
import proofs.«402231_j36112085024790_3_alg».proof.Proof.KernelArrays

set_option maxRecDepth 16384

noncomputable section

namespace Cert.KernelIdeal.KPts

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen Cert.KernelIdeal.Tile Cert.KernelIdeal.Pieces Cert.KernelIdeal.KArr

variable (m : (ℓ : Loc nD τ sig) → Buf (Elt Ideal) ℓ)

/-- The contents after a point, each at its literal type. -/
abbrev outAt (c : Dev nD) (t : Fin cfg0.N) : Vec Ideal S1x128x1024 .f32 := (outsAt0 m c t.val t.isLt).1
abbrev ktAt (c : Dev nD) (n : ℕ) (hn : n < cfg0.N) : Vec Ideal S128x4096 .bf16 := (outsAt0 m c n hn).2.1
abbrev vtAt (c : Dev nD) (n : ℕ) (hn : n < cfg0.N) : Vec Ideal S128x4096 .bf16 := (outsAt0 m c n hn).2.2

/-- First tile of a batch: the keys' scratch array. -/
theorem kt_A (c : Dev nD) (t : Fin cfg0.N) (h0 : t.val % 4 = 0) :
    ktAt m c t.val t.isLt = k0_pay3 (xblk m c t) (wkblk m c t) (bkblk m c t) := by
  unfold ktAt
  rw [outsAt0_A m c t h0]
  dsimp only
  exact scratchK_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)

/-- First tile of a batch: the values' scratch array. -/
theorem vt_A (c : Dev nD) (t : Fin cfg0.N) (h0 : t.val % 4 = 0) :
    vtAt m c t.val t.isLt = k0_pay4 (xblk m c t) (wvblk m c t) (bvblk m c t) := by
  unfold vtAt
  rw [outsAt0_A m c t h0]
  dsimp only
  exact scratchV_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)

/-- First tile of a batch: the output buffer. -/
theorem out_A_pt (c : Dev nD) (t : Fin cfg0.N) (h0 : t.val % 4 = 0) :
    outAt m c t = tileOf (grid0.coords t) (xblk m c t) (wqblk m c t) (bqblk m c t)
      (k0_pay3 (xblk m c t) (wkblk m c t) (bkblk m c t)) (k0_pay4 (xblk m c t) (wvblk m c t) (bvblk m c t)) := by
  unfold outAt
  rw [outsAt0_A m c t h0]
  dsimp only
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)

/-- A later tile: the scratch arrays keep what the point before left. -/
theorem kt_B (c : Dev nD) (t : Fin cfg0.N) (h0 : ¬t.val % 4 = 0) :
    ktAt m c t.val t.isLt = ktAt m c (t.val - 1) (Nat.lt_of_le_of_lt (Nat.sub_le _ _) t.isLt) := by
  unfold ktAt
  rw [outsAt0_B m c t h0]
  dsimp only
  rfl
theorem vt_B (c : Dev nD) (t : Fin cfg0.N) (h0 : ¬t.val % 4 = 0) :
    vtAt m c t.val t.isLt = vtAt m c (t.val - 1) (Nat.lt_of_le_of_lt (Nat.sub_le _ _) t.isLt) := by
  unfold vtAt
  rw [outsAt0_B m c t h0]
  dsimp only
  rfl

/-- A later tile: the output buffer. -/
theorem out_B_pt (c : Dev nD) (t : Fin cfg0.N) (h0 : ¬t.val % 4 = 0) :
    outAt m c t = tileOf (grid0.coords t) (xblk m c t) (wqblk m c t) (bqblk m c t)
      (ktAt m c (t.val - 1) (Nat.lt_of_le_of_lt (Nat.sub_le _ _) t.isLt)) (vtAt m c (t.val - 1) (Nat.lt_of_le_of_lt (Nat.sub_le _ _) t.isLt)) := by
  unfold outAt
  rw [outsAt0_B m c t h0]
  dsimp only
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.KPts

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.LibAttnOps.lean ====
/-
  General lemmas: four vector operations of an attention body read at an index on the extended reals, for any sizes.

  * a matrix product contracting the FIRST axis of both operands, `[K, M] × [K, N] → [M, N]` (queries against keys, both
    stored channels-first): entry `(p, q)` is `∑ k, l[k, p] · r[k, q]`;
  * a matrix product contracting the SECOND axis of both operands, `[M, K] × [N, K] → [M, N]` (weights against values stored
    channels-first): entry `(p, q)` is `∑ k, l[p, k] · r[q, k]`;
  * a row maximum, `multi_reduction <maximumf>` of an `[a, b]` array over axis 1: entry `i` is the fold of `max` from the
    accumulator's value over row `i`;
  * a row sum, `multi_reduction <add>` over axis 1: entry `i` is `∑ k, src[i, k]`.

  The two products go the same way: the record of dimension numbers is replaced by the literal one with those lists, the
  operand indices at a result index and a contraction index are read coordinate by coordinate (the contracted axis
  carries the contraction index's one coordinate, the kept axis the result's row or column), and the sum over the
  one-axis contraction shape is re-indexed by that axis's coordinate. The two reductions read the library's one-axis
  reduction laws at axis 1 of a rank-2 shape, where the index inserted over row `i` at coordinate `k` is `(i, k)`.
-/
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

/-! ## Contracting axis 0 of both operands -/

namespace TN

/-- The dimension numbers contracting axis 0 with axis 0 as a literal record; `wf` are their conditions. -/
abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

/-- The left operand's row is the contracted coordinate. -/
theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

/-- The left operand's column is the result's row. -/
theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

/-- The right operand's row is the contracted coordinate. -/
theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

/-- The right operand's column is the result's column. -/
theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

/-- The product of the literal record at `(p, q)`. -/
theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

/-- `[K, M] × [K, N]` contracting axis 0 of both, into a zero accumulator, at `(p, q)`. -/
theorem matmul_tn_apply {M K N : Nat} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 k p) * r (ix2 k q) := by
  obtain ⟨lc, rc, ln, rn, lb, rb, wf⟩ := d
  simp only at h1 h2 h3 h4 h5 h6
  subst h1 h2 h3 h4 h5 h6
  exact TN.matmul_dims_apply wf prec l r p q

/-! ## Contracting axis 1 of both operands -/

namespace NT

/-- The dimension numbers contracting axis 1 with axis 1 as a literal record; `wf` are their conditions. -/
abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the result's row. -/
theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

/-- The left operand's column is the contracted coordinate. -/
theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

/-- The right operand's row is the result's column. -/
theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

/-- The right operand's column is the contracted coordinate. -/
theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

/-- The product of the literal record at `(p, q)`. -/
theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

/-- `[M, K] × [N, K]` contracting axis 1 of both, into a zero accumulator, at `(p, q)`. -/
theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

/-! ## Reductions over axis 1 of a rank-2 array -/

/-- Over row `i`, the index inserted at coordinate `k` of axis 1 is `(i, k)`. -/
theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

/-- The row maximum of an `[a, b]` array at row `i`: the fold of `max` from the accumulator's value over the row. -/
theorem rowmax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i) : Fin b → EReal) = fun k => src (ix2 i k) :=
    funext fun k => congrArg src (lift_row h i k)
  exact congrArg (fun f : Fin b → EReal => (Finset.univ : Finset (Fin b)).fold max (Ideal.ofBits φ acc) f) e

/-- The row sum of an `[a, b]` array at row `i`. -/
theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

end Cert.LibAttnOps

end
-- ==== Proof.TileValue.lean ====
/-
  The kernel body's pure terms read at an index on the extended reals.
-/
import proofs.«402231_j36112085024790_3_alg».proof.Proof.TileDef
import proofs.«402231_j36112085024790_3_alg».proof.Proof.Spec
import proofs.«402231_j36112085024790_3_alg».proof.Proof.LibPlainMatmul
import proofs.«402231_j36112085024790_3_alg».proof.Proof.LibKeepdimsColumn
import proofs.«402231_j36112085024790_3_alg».proof.Proof.LibAttnOps
import Idealize.ShloMosaic.Lib.Pipeline.Value
import Idealize.ShloMosaic.Lib.ValueLayout

noncomputable section

namespace Cert.KernelIdeal.Tile

open Idealize.ShloMosaic Idealize.ShloMosaic.ValueIdx Cert.KernelIdeal Cert.KernelIdeal.Gen

/-! # One query row through the four chunks -/

namespace Row

/-! ## The four non-pointwise operations of a chunk, at the kernel's sizes -/

/-- Scores of a chunk: queries against keys, both channels-first. -/
theorem scores_apply (q : FVec Ideal S128x1024 .bf16) (Kc : FVec Ideal S128x1024 .bf16) (i j : Fin 1024) :
    matmul dot_S128x1024_S128x1024_S1024x1024_0_0_1_1_n_n none q Kc (constant S1024x1024 .f32 0x00000000#32) (ix2 i j)
      = ∑ e : Fin 128, q (ix2 e i) * Kc (ix2 e j) :=
  Cert.LibAttnOps.matmul_tn_apply dot_S128x1024_S128x1024_S1024x1024_0_0_1_1_n_n rfl rfl rfl rfl rfl rfl none q Kc i j

/-- Weights against values stored channels-first. -/
theorem wv_apply (P : FVec Ideal S1024x1024 .bf16) (Vc : FVec Ideal S128x1024 .bf16) (i : Fin 1024) (d : Fin 128) :
    matmul dot_S1024x1024_S128x1024_S1024x128_1_1_0_0_n_n none P Vc (constant S1024x128 .f32 0x00000000#32) (ix2 i d)
      = ∑ j : Fin 1024, P (ix2 i j) * Vc (ix2 d j) :=
  Cert.LibAttnOps.matmul_nt_apply dot_S1024x1024_S128x1024_S1024x128_1_1_0_0_n_n rfl rfl rfl rfl rfl rfl none P Vc i d

/-- The row maximum kept as a column. -/
theorem rowmax_col_apply (S : FVec Ideal S1024x1024 .f32) (i : Fin 1024) (u : Fin 1) :
    shapeCast S1024x1 (multiReduction .maximumf [1] S1024 S 0xFF800000#32 reduces_S1024x1024_S1024 (.inl rfl) rfl)
        shapeCasts_S1024_S1024x1 (ix2 i u)
      = (Finset.univ : Finset (Fin 1024)).fold max Cert.Attn.NEG (fun j => S (ix2 i j)) := by
  rw [Cert.LibKeepdimsColumn.shapeCast_a_a1_apply]
  exact Cert.LibAttnOps.rowmax_apply S 0xFF800000#32 reduces_S1024x1024_S1024 (.inl rfl) rfl i

/-- The row sum kept as a column. -/
theorem rowsum_col_apply (P : FVec Ideal S1024x1024 .f32) (i : Fin 1024) (u : Fin 1) :
    shapeCast S1024x1 (multiReduction .add [1] S1024 P 0x00000000#32 reduces_S1024x1024_S1024 (.inl rfl) rfl)
        shapeCasts_S1024_S1024x1 (ix2 i u)
      = ∑ j : Fin 1024, P (ix2 i j) := by
  rw [Cert.LibKeepdimsColumn.shapeCast_a_a1_apply]
  exact Cert.LibAttnOps.rowsum_apply P 0x00000000#32 reduces_S1024x1024_S1024 (.inl rfl) rfl i

/-- The exponential at an index. -/
theorem vexp_apply {s : Shape} {φ : FTy} (v : FVec Ideal s φ) (i : s.Idx) : exp v i = Ideal.exp (v i) := rfl

/-! ## The first chunk's payloads at an index -/

section First
variable (xq : Vec Ideal S1x128x1024 .f32) (wq : Vec Ideal S128x128 .f32) (bq : Vec Ideal S128x1 .f32)
  (K0 : Vec Ideal S128x1024 .bf16)

theorem pay6_apply (i : Fin 1024) (u : Fin 1) : k0_pay6 (F := Ideal) (ix2 i u) = Cert.Attn.NEG := rfl

theorem pay7_apply (i : Fin 1024) (d : Fin 128) : k0_pay7 (F := Ideal) (ix2 i d) = Cert.Attn.ZERO := rfl

theorem pay8_apply (i j : Fin 1024) :
    k0_pay8 (F := Ideal) xq wq bq K0 (ix2 i j)
      = ∑ e : Fin 128, k0_pay5 (F := Ideal) xq wq bq (ix2 e i) * K0 (ix2 e j) := by
  unfold k0_pay8
  exact scores_apply _ _ i j

theorem pay9_apply (i : Fin 1024) (u : Fin 1) :
    k0_pay9 (F := Ideal) xq wq bq K0 (ix2 i u)
      = max Cert.Attn.NEG ((Finset.univ : Finset (Fin 1024)).fold max Cert.Attn.NEG
          (fun j => k0_pay8 (F := Ideal) xq wq bq K0 (ix2 i j))) := by
  unfold k0_pay9
  rw [maximumf_apply, rowmax_col_apply, pay6_apply]

theorem pay10_apply (i : Fin 1024) (u : Fin 1) :
    k0_pay10 (F := Ideal) xq wq bq K0 (ix2 i u)
      = Ideal.exp (Cert.Attn.NEG - k0_pay9 (F := Ideal) xq wq bq K0 (ix2 i u)) := by
  unfold k0_pay10
  rw [vexp_apply, subf_apply, pay6_apply]

theorem pay11_apply (i j : Fin 1024) :
    k0_pay11 (F := Ideal) xq wq bq K0 (ix2 i j)
      = Ideal.exp (k0_pay8 (F := Ideal) xq wq bq K0 (ix2 i j) - k0_pay9 (F := Ideal) xq wq bq K0 (ix2 i (0 : Fin 1))) := by
  unfold k0_pay11
  rw [vexp_apply, subf_apply, Cert.LibKeepdimsColumn.broadcastTo_a1_ab_apply]

theorem pay12_apply (i : Fin 1024) (u : Fin 1) :
    k0_pay12 (F := Ideal) xq wq bq K0 (ix2 i u)
      = Cert.Attn.ZERO * k0_pay10 (F := Ideal) xq wq bq K0 (ix2 i u) := by
  unfold k0_pay12
  rw [mulf_apply, broadcast_apply]
  rfl

theorem pay13_apply (i : Fin 1024) (u : Fin 1) :
    k0_pay13 (F := Ideal) xq wq bq K0 (ix2 i u)
      = ∑ j : Fin 1024, k0_pay11 (F := Ideal) xq wq bq K0 (ix2 i j) := by
  unfold k0_pay13
  exact rowsum_col_apply _ i u

end First

/-- The scaled query projection at (channel e, position i). -/
theorem q_apply (xq : Vec Ideal S1x128x1024 .f32) (wq : Vec Ideal S128x128 .f32) (bq : Vec Ideal S128x1 .f32)
    (e : Fin 128) (i : Fin 1024) :
    k0_pay5 (F := Ideal) xq wq bq (ix2 e i)
      = ((∑ cc : Fin 128, wq (ix2 e cc) * xq (ix3 (0 : Fin 1) cc i)) + bq (ix2 e (0 : Fin 1))) * Cert.Attn.SC := by
  unfold k0_pay5
  rw [truncf_apply, mulf_apply, broadcast_apply, addf_apply, Cert.LibKeepdimsColumn.broadcastTo_a1_ab_apply, shapeCast_self]
  refine congrArg (fun t => (t + bq (ix2 e (0 : Fin 1))) * Cert.Attn.SC) ?_
  refine (Cert.Lib.matmul_plain_apply dot_S128x128_S128x1024_S128x1024_1_0_0_1_n_n rfl rfl rfl rfl rfl rfl none _ _ e i).trans ?_
  refine Finset.sum_congr rfl fun cc _ => ?_
  rw [truncf_apply, truncf_apply, shapeCast_1ab_ab_apply]

/-- Rounded weights against values: the format change is the identity. -/
theorem wv_trunc_apply (P : FVec Ideal S1024x1024 .f32) (Vc : FVec Ideal S128x1024 .bf16) (i : Fin 1024) (d : Fin 128) :
    matmul dot_S1024x1024_S128x1024_S1024x128_1_1_0_0_n_n none (truncf .bf16 P bitsLt_bf16_f32) Vc
        (constant S1024x128 .f32 0x00000000#32) (ix2 i d)
      = ∑ j : Fin 1024, P (ix2 i j) * Vc (ix2 d j) :=
  wv_apply (truncf .bf16 P bitsLt_bf16_f32) Vc i d

/-! ## The second and third chunks' payloads at an index -/

section Later
variable (q : FVec Ideal S128x1024 .bf16) (m0 : FVec Ideal S1024x1 .f32) (K1 K2 : Vec Ideal S128x1024 .bf16)

theorem pay14_apply (i j : Fin 1024) :
    k0_pay14 (F := Ideal) q K1 (ix2 i j) = ∑ e : Fin 128, q (ix2 e i) * K1 (ix2 e j) := by
  unfold k0_pay14
  exact scores_apply _ _ i j

theorem pay15_apply (i : Fin 1024) (u : Fin 1) :
    k0_pay15 (F := Ideal) q m0 K1 (ix2 i u)
      = max (m0 (ix2 i u)) ((Finset.univ : Finset (Fin 1024)).fold max Cert.Attn.NEG
          (fun j => k0_pay14 (F := Ideal) q K1 (ix2 i j))) := by
  unfold k0_pay15
  rw [maximumf_apply, rowmax_col_apply]

theorem pay16_apply (i : Fin 1024) (u : Fin 1) :
    k0_pay16 (F := Ideal) q m0 K1 (ix2 i u)
      = Ideal.exp (m0 (ix2 i u) - k0_pay15 (F := Ideal) q m0 K1 (ix2 i u)) := by
  unfold k0_pay16
  rw [vexp_apply, subf_apply]

theorem pay17_apply (i j : Fin 1024) :
    k0_pay17 (F := Ideal) q m0 K1 (ix2 i j)
      = Ideal.exp (k0_pay14 (F := Ideal) q K1 (ix2 i j) - k0_pay15 (F := Ideal) q m0 K1 (ix2 i (0 : Fin 1))) := by
  unfold k0_pay17
  rw [vexp_apply, subf_apply, Cert.LibKeepdimsColumn.broadcastTo_a1_ab_apply]

theorem pay18_apply (acc0 : FVec Ideal S1024x128 .f32) (V0 V1 : Vec Ideal S128x1024 .bf16) (a0 : FVec Ideal S1024x1 .f32)
    (P0 : FVec Ideal S1024x1024 .f32) (i : Fin 1024) (d : Fin 128) :
    k0_pay18 (F := Ideal) q acc0 V0 m0 a0 P0 K1 V1 (ix2 i d)
      = (acc0 (ix2 i d) * a0 (ix2 i (0 : Fin 1)) + ∑ j : Fin 1024, P0 (ix2 i j) * V0 (ix2 d j))
          * k0_pay16 (F := Ideal) q m0 K1 (ix2 i (0 : Fin 1))
        + ∑ j : Fin 1024, k0_pay17 (F := Ideal) q m0 K1 (ix2 i j) * V1 (ix2 d j) := by
  unfold k0_pay18
  rw [addf_apply, mulf_apply, addf_apply, mulf_apply, Cert.LibKeepdimsColumn.broadcastTo_a1_ab_apply,
    Cert.LibKeepdimsColumn.broadcastTo_a1_ab_apply, wv_trunc_apply, wv_trunc_apply]

theorem pay19_apply (i j : Fin 1024) :
    k0_pay19 (F := Ideal) q K2 (ix2 i j) = ∑ e : Fin 128, q (ix2 e i) * K2 (ix2 e j) := by
  unfold k0_pay19
  exact scores_apply _ _ i j

theorem pay20_apply (i : Fin 1024) (u : Fin 1) :
    k0_pay20 (F := Ideal) q m0 K1 K2 (ix2 i u)
      = max (k0_pay15 (F := Ideal) q m0 K1 (ix2 i u)) ((Finset.univ : Finset (Fin 1024)).fold max Cert.Attn.NEG
          (fun j => k0_pay19 (F := Ideal) q K2 (ix2 i j))) := by
  unfold k0_pay20
  rw [maximumf_apply, rowmax_col_apply]

theorem pay21_apply (i : Fin 1024) (u : Fin 1) :
    k0_pay21 (F := Ideal) q m0 K1 K2 (ix2 i u)
      = Ideal.exp (k0_pay15 (F := Ideal) q m0 K1 (ix2 i u) - k0_pay20 (F := Ideal) q m0 K1 K2 (ix2 i u)) := by
  unfold k0_pay21
  rw [vexp_apply, subf_apply]

theorem pay22_apply (i j : Fin 1024) :
    k0_pay22 (F := Ideal) q m0 K1 K2 (ix2 i j)
      = Ideal.exp (k0_pay19 (F := Ideal) q K2 (ix2 i j) - k0_pay20 (F := Ideal) q m0 K1 K2 (ix2 i (0 : Fin 1))) := by
  unfold k0_pay22
  rw [vexp_apply, subf_apply, Cert.LibKeepdimsColumn.broadcastTo_a1_ab_apply]

theorem pay23_apply (l00 l01 : FVec Ideal S1024x1 .f32) (i : Fin 1024) (u : Fin 1) :
    k0_pay23 (F := Ideal) q m0 l00 l01 K1 K2 (ix2 i u)
      = ((l00 (ix2 i u) + l01 (ix2 i u)) * k0_pay16 (F := Ideal) q m0 K1 (ix2 i u)
            + ∑ j : Fin 1024, k0_pay17 (F := Ideal) q m0 K1 (ix2 i j))
          * k0_pay21 (F := Ideal) q m0 K1 K2 (ix2 i u)
        + ∑ j : Fin 1024, k0_pay22 (F := Ideal) q m0 K1 K2 (ix2 i j) := by
  unfold k0_pay23
  rw [addf_apply, mulf_apply, addf_apply, mulf_apply, addf_apply, rowsum_col_apply, rowsum_col_apply]

theorem pay24_apply (V2 : Vec Ideal S128x1024 .bf16) (i : Fin 1024) (d : Fin 128) :
    k0_pay24 (F := Ideal) q m0 K1 K2 V2 (ix2 i d)
      = ∑ j : Fin 1024, k0_pay22 (F := Ideal) q m0 K1 K2 (ix2 i j) * V2 (ix2 d j) := by
  unfold k0_pay24
  exact wv_trunc_apply _ _ i d

end Later

/-! ## The last chunk and the quotient -/

theorem pay1_apply (q : FVec Ideal S128x1024 .bf16) (acc1 : FVec Ideal S1024x128 .f32) (m2 a2 l2 : FVec Ideal S1024x1 .f32)
    (pv2 : FVec Ideal S1024x128 .f32) (K3 V3 : Vec Ideal S128x1024 .bf16) (d : Fin 128) (i : Fin 1024)
    (S3 : Fin 1024 → EReal) (hS : S3 = fun j => ∑ e : Fin 128, q (ix2 e i) * K3 (ix2 e j))
    (m3 : EReal) (hm : m3 = max (m2 (ix2 i (0 : Fin 1))) ((Finset.univ : Finset (Fin 1024)).fold max Cert.Attn.NEG S3)) :
    k0_pay1 (F := Ideal) q acc1 m2 a2 l2 pv2 K3 V3 (ix3 (0 : Fin 1) d i)
      = ((acc1 (ix2 i d) * a2 (ix2 i (0 : Fin 1)) + pv2 (ix2 i d)) * Ideal.exp (m2 (ix2 i (0 : Fin 1)) - m3)
            + ∑ j : Fin 1024, Ideal.exp (S3 j - m3) * V3 (ix2 d j))
          * Ideal.div Cert.Attn.ONE (l2 (ix2 i (0 : Fin 1)) * Ideal.exp (m2 (ix2 i (0 : Fin 1)) - m3)
              + ∑ j : Fin 1024, Ideal.exp (S3 j - m3)) := by
  have hsc : ∀ j : Fin 1024, matmul dot_S128x1024_S128x1024_S1024x1024_0_0_1_1_n_n none q K3
      (constant S1024x1024 .f32 0x00000000#32) (ix2 i j) = S3 j := fun j => by rw [hS]; exact scores_apply q K3 i j
  unfold k0_pay1
  rw [shapeCast_ab_1ab_apply, transpose_ix2_apply, mulf_apply, Cert.LibKeepdimsColumn.broadcastTo_a1_ab_apply, divf_apply,
    broadcast_apply]
  generalize matmul dot_S128x1024_S128x1024_S1024x1024_0_0_1_1_n_n none q K3
      (constant S1024x1024 .f32 0x00000000#32) = Sv at hsc ⊢
  have hM : (maximumf m2 (shapeCast S1024x1 (multiReduction .maximumf [1] S1024 Sv 0xFF800000#32
      reduces_S1024x1024_S1024 (.inl rfl) rfl) shapeCasts_S1024_S1024x1)) (ix2 i (0 : Fin 1)) = m3 := by
    rw [maximumf_apply, rowmax_col_apply, hm]
    exact congrArg (fun f => max (m2 (ix2 i (0 : Fin 1))) ((Finset.univ : Finset (Fin 1024)).fold max Cert.Attn.NEG f))
      (funext hsc)
  generalize (maximumf m2 (shapeCast S1024x1 (multiReduction .maximumf [1] S1024 Sv 0xFF800000#32
      reduces_S1024x1024_S1024 (.inl rfl) rfl) shapeCasts_S1024_S1024x1)) = M at hM ⊢
  have hP : ∀ j : Fin 1024, exp (subf Sv (broadcastTo S1024x1024 M broadcasts_S1024x1_S1024x1024)) (ix2 i j)
      = Ideal.exp (S3 j - m3) := fun j => by
    rw [vexp_apply, subf_apply, Cert.LibKeepdimsColumn.broadcastTo_a1_ab_apply, hsc, hM]
  generalize exp (subf Sv (broadcastTo S1024x1024 M broadcasts_S1024x1_S1024x1024)) = P at hP ⊢
  have hα : exp (subf m2 M) (ix2 i (0 : Fin 1)) = Ideal.exp (m2 (ix2 i (0 : Fin 1)) - m3) := by
    rw [vexp_apply, subf_apply, hM]
  generalize exp (subf m2 M) = α at hα ⊢
  rw [addf_apply, mulf_apply, addf_apply, mulf_apply, Cert.LibKeepdimsColumn.broadcastTo_a1_ab_apply,
    Cert.LibKeepdimsColumn.broadcastTo_a1_ab_apply, wv_trunc_apply, addf_apply, mulf_apply, rowsum_col_apply, hα]
  rw [Finset.sum_congr rfl fun j _ => congrArg (· * V3 (ix2 d j)) (hP j), Finset.sum_congr rfl fun j _ => hP j]
  rfl

/-! ## The four chunks chained -/

open Cert.Attn in
/-- The tile at (channel d, position i) from the chunk scores and values of row `i` named as functions. -/
theorem tile_row_aux (xq : Vec Ideal S1x128x1024 .f32) (wq : Vec Ideal S128x128 .f32) (bq : Vec Ideal S128x1 .f32)
    (K V : Fin 4 → Vec Ideal S128x1024 .bf16) (d : Fin 128) (i : Fin 1024)
    (S : Fin 4 → Fin 1024 → EReal)
    (hS : ∀ c j, (∑ e : Fin 128, k0_pay5 (F := Ideal) xq wq bq (ix2 e i) * K c (ix2 e j)) = S c j)
    (Vf : Fin 4 → Fin 128 → Fin 1024 → EReal) (hV : ∀ c e j, V c (ix2 e j) = Vf c e j) :
    tile (F := Ideal) xq wq bq (K 0) (K 1) (K 2) (K 3) (V 0) (V 1) (V 2) (V 3) (ix3 (0 : Fin 1) d i)
      = fin (run4 S Vf) d := by
  -- the first chunk, from the initial state
  have h8 : (fun j => k0_pay8 (F := Ideal) xq wq bq (K 0) (ix2 i j)) = S 0 :=
    funext fun j => (pay8_apply xq wq bq (K 0) i j).trans (hS 0 j)
  have h9 : k0_pay9 (F := Ideal) xq wq bq (K 0) (ix2 i (0 : Fin 1)) = (step init (S 0) (Vf 0)).m := by
    rw [pay9_apply, h8]; rfl
  have h10 : k0_pay10 (F := Ideal) xq wq bq (K 0) (ix2 i (0 : Fin 1))
      = Ideal.exp (NEG - (step init (S 0) (Vf 0)).m) := by
    rw [pay10_apply, h9]
  have h11 : ∀ j, k0_pay11 (F := Ideal) xq wq bq (K 0) (ix2 i j)
      = Ideal.exp (S 0 j - (step init (S 0) (Vf 0)).m) := fun j => by
    rw [pay11_apply, h9, congrFun h8 j]
  have h1213 : k0_pay12 (F := Ideal) xq wq bq (K 0) (ix2 i (0 : Fin 1)) + k0_pay13 (F := Ideal) xq wq bq (K 0) (ix2 i (0 : Fin 1))
      = (step init (S 0) (Vf 0)).l := by
    rw [pay12_apply, pay13_apply, h10, Finset.sum_congr rfl fun j _ => h11 j]; rfl
  -- the second chunk
  have h14 : (fun j => k0_pay14 (F := Ideal) (k0_pay5 xq wq bq) (K 1) (ix2 i j)) = S 1 :=
    funext fun j => (pay14_apply (k0_pay5 xq wq bq) (K 1) i j).trans (hS 1 j)
  have h15 : k0_pay15 (F := Ideal) (k0_pay5 xq wq bq) (k0_pay9 xq wq bq (K 0)) (K 1) (ix2 i (0 : Fin 1))
      = (step (step init (S 0) (Vf 0)) (S 1) (Vf 1)).m := by
    rw [pay15_apply, h14, h9]; rfl
  have h16 : k0_pay16 (F := Ideal) (k0_pay5 xq wq bq) (k0_pay9 xq wq bq (K 0)) (K 1) (ix2 i (0 : Fin 1))
      = Ideal.exp ((step init (S 0) (Vf 0)).m - (step (step init (S 0) (Vf 0)) (S 1) (Vf 1)).m) := by
    rw [pay16_apply, h15, h9]
  have h17 : ∀ j, k0_pay17 (F := Ideal) (k0_pay5 xq wq bq) (k0_pay9 xq wq bq (K 0)) (K 1) (ix2 i j)
      = Ideal.exp (S 1 j - (step (step init (S 0) (Vf 0)) (S 1) (Vf 1)).m) := fun j => by
    rw [pay17_apply, h15, congrFun h14 j]
  have h18 : k0_pay18 (F := Ideal) (k0_pay5 xq wq bq) (k0_pay7 (F := Ideal)) (V 0) (k0_pay9 xq wq bq (K 0))
        (k0_pay10 xq wq bq (K 0)) (k0_pay11 xq wq bq (K 0)) (K 1) (V 1) (ix2 i d)
      = (step (step init (S 0) (Vf 0)) (S 1) (Vf 1)).acc d := by
    rw [pay18_apply, pay7_apply, h10, h16,
      Finset.sum_congr rfl fun j _ => (show k0_pay11 (F := Ideal) xq wq bq (K 0) (ix2 i j) * V 0 (ix2 d j)
        = Ideal.exp (S 0 j - (step init (S 0) (Vf 0)).m) * Vf 0 d j by rw [h11 j, hV 0 d j]),
      Finset.sum_congr rfl fun j _ => (show k0_pay17 (F := Ideal) (k0_pay5 xq wq bq) (k0_pay9 xq wq bq (K 0)) (K 1) (ix2 i j) * V 1 (ix2 d j)
        = Ideal.exp (S 1 j - (step (step init (S 0) (Vf 0)) (S 1) (Vf 1)).m) * Vf 1 d j by rw [h17 j, hV 1 d j])]
    rfl
  -- the third chunk
  have h19 : (fun j => k0_pay19 (F := Ideal) (k0_pay5 xq wq bq) (K 2) (ix2 i j)) = S 2 :=
    funext fun j => (pay19_apply (k0_pay5 xq wq bq) (K 2) i j).trans (hS 2 j)
  have h20 : k0_pay20 (F := Ideal) (k0_pay5 xq wq bq) (k0_pay9 xq wq bq (K 0)) (K 1) (K 2) (ix2 i (0 : Fin 1))
      = (step (step (step init (S 0) (Vf 0)) (S 1) (Vf 1)) (S 2) (Vf 2)).m := by
    rw [pay20_apply, h19, h15]; rfl
  have h21 : k0_pay21 (F := Ideal) (k0_pay5 xq wq bq) (k0_pay9 xq wq bq (K 0)) (K 1) (K 2) (ix2 i (0 : Fin 1))
      = Ideal.exp ((step (step init (S 0) (Vf 0)) (S 1) (Vf 1)).m
          - (step (step (step init (S 0) (Vf 0)) (S 1) (Vf 1)) (S 2) (Vf 2)).m) := by
    rw [pay21_apply, h20, h15]
  have h22 : ∀ j, k0_pay22 (F := Ideal) (k0_pay5 xq wq bq) (k0_pay9 xq wq bq (K 0)) (K 1) (K 2) (ix2 i j)
      = Ideal.exp (S 2 j - (step (step (step init (S 0) (Vf 0)) (S 1) (Vf 1)) (S 2) (Vf 2)).m) := fun j => by
    rw [pay22_apply, h20, congrFun h19 j]
  have h23 : k0_pay23 (F := Ideal) (k0_pay5 xq wq bq) (k0_pay9 xq wq bq (K 0)) (k0_pay12 xq wq bq (K 0))
        (k0_pay13 xq wq bq (K 0)) (K 1) (K 2) (ix2 i (0 : Fin 1))
      = (step (step (step init (S 0) (Vf 0)) (S 1) (Vf 1)) (S 2) (Vf 2)).l := by
    rw [pay23_apply, h1213, h16, h21, Finset.sum_congr rfl fun j _ => h17 j, Finset.sum_congr rfl fun j _ => h22 j]
    rfl
  have h24 : k0_pay24 (F := Ideal) (k0_pay5 xq wq bq) (k0_pay9 xq wq bq (K 0)) (K 1) (K 2) (V 2) (ix2 i d)
      = ∑ j : Fin 1024, Ideal.exp (S 2 j - (step (step (step init (S 0) (Vf 0)) (S 1) (Vf 1)) (S 2) (Vf 2)).m) * Vf 2 d j := by
    rw [pay24_apply]
    exact Finset.sum_congr rfl fun j _ => by rw [h22 j, hV 2 d j]
  -- the fourth chunk and the quotient
  unfold tile
  rw [pay1_apply (k0_pay5 xq wq bq) _ _ _ _ _ (K 3) (V 3) d i (S 3) (funext (hS 3)).symm
    (run4 S Vf).m (by rw [h20]; rfl), h18, h21, h24, h20, h23,
    Finset.sum_congr rfl fun j _ => (show Ideal.exp (S 3 j - (run4 S Vf).m) * V 3 (ix2 d j)
      = Ideal.exp (S 3 j - (run4 S Vf).m) * Vf 3 d j by rw [hV 3 d j])]
  rfl

end Row

/-! # The stored projections and the output tile -/

/-- The projected keys stored in the first scratch array, at (channel e, key j): the weight's row times the column of
    `x`, plus the bias. -/
theorem kproj_apply (x0 : Vec Ideal S1x128x4096 .f32) (w : Vec Ideal S128x128 .f32) (b : Vec Ideal S128x1 .f32)
    (e : Fin 128) (j : Fin 4096) :
    k0_pay3 (F := Ideal) x0 w b (ix2 e j)
      = (∑ cc : Fin 128, w (ix2 e cc) * x0 (ix3 (0 : Fin 1) cc j)) + b (ix2 e (0 : Fin 1)) := by
  unfold k0_pay3 k0_pay2
  rw [shapeCast_self, truncf_apply, addf_apply, Cert.LibKeepdimsColumn.broadcastTo_a1_ab_apply, shapeCast_self]
  refine congrArg (· + b (ix2 e (0 : Fin 1))) ?_
  refine (Cert.Lib.matmul_plain_apply dot_S128x128_S128x4096_S128x4096_1_0_0_1_n_n rfl rfl rfl rfl rfl rfl none _ _ e j).trans ?_
  refine Finset.sum_congr rfl fun cc _ => ?_
  rw [truncf_apply, truncf_apply, shapeCast_1ab_ab_apply]

/-- The projected values stored in the second scratch array: the same form. -/
theorem vproj_apply (x0 : Vec Ideal S1x128x4096 .f32) (w : Vec Ideal S128x128 .f32) (b : Vec Ideal S128x1 .f32)
    (e : Fin 128) (j : Fin 4096) :
    k0_pay4 (F := Ideal) x0 w b (ix2 e j)
      = (∑ cc : Fin 128, w (ix2 e cc) * x0 (ix3 (0 : Fin 1) cc j)) + b (ix2 e (0 : Fin 1)) := by
  unfold k0_pay4 k0_pay2
  rw [shapeCast_self, truncf_apply, addf_apply, Cert.LibKeepdimsColumn.broadcastTo_a1_ab_apply, shapeCast_self]
  refine congrArg (· + b (ix2 e (0 : Fin 1))) ?_
  refine (Cert.Lib.matmul_plain_apply dot_S128x128_S128x4096_S128x4096_1_0_0_1_n_n rfl rfl rfl rfl rfl rfl none _ _ e j).trans ?_
  refine Finset.sum_congr rfl fun cc _ => ?_
  rw [truncf_apply, truncf_apply, shapeCast_1ab_ab_apply]

/-- The output tile at (channel d, position i): the four-chunk running softmax of row `i` (`Attn.run4`, `Attn.fin`) over
    the scaled query projection's scores against the key chunks and the value chunks. -/
theorem tile_apply (xq : Vec Ideal S1x128x1024 .f32) (wq : Vec Ideal S128x128 .f32) (bq : Vec Ideal S128x1 .f32)
    (K V : Fin 4 → Vec Ideal S128x1024 .bf16) (d : Fin 128) (i : Fin 1024) :
    tile (F := Ideal) xq wq bq (K 0) (K 1) (K 2) (K 3) (V 0) (V 1) (V 2) (V 3) (ix3 (0 : Fin 1) d i)
      = Cert.Attn.fin (Cert.Attn.run4
          (fun c j => ∑ e : Fin 128,
            (((∑ cc : Fin 128, wq (ix2 e cc) * xq (ix3 (0 : Fin 1) cc i)) + bq (ix2 e (0 : Fin 1))) * Cert.Attn.SC) * K c (ix2 e j))
          (fun c e j => V c (ix2 e j))) d :=
  Row.tile_row_aux xq wq bq K V d i
    (fun c j => ∑ e : Fin 128,
      (((∑ cc : Fin 128, wq (ix2 e cc) * xq (ix3 (0 : Fin 1) cc i)) + bq (ix2 e (0 : Fin 1))) * Cert.Attn.SC) * K c (ix2 e j))
    (fun c j => Finset.sum_congr rfl fun e _ => by rw [Row.q_apply])
    (fun c e j => V c (ix2 e j)) (fun _ _ _ => rfl)

end Cert.KernelIdeal.Tile

end
-- ==== Proof.KernelValue.lean ====
/-
  The kernel's result array, index by index: the kernel's spelling of attention (`Attn.kout`) of the argument arrays.

  By induction on the grid point the two scratch arrays hold, after point `t`, the projected keys and values of batch
  `t / 4`. So at every point the output buffer holds, at (channel d, position i), `kout` at batch `t / 4`, channel
  `d`, position `1024 · (t % 4) + i`. Every point writes its block back; the sixteen blocks tile the array.
-/
import proofs.«402231_j36112085024790_3_alg».proof.Proof.KernelPoints
import proofs.«402231_j36112085024790_3_alg».proof.Proof.TileValue

set_option maxRecDepth 16384

noncomputable section

namespace Cert.KernelIdeal.KValue

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen Cert.KernelIdeal.Tile Cert.KernelIdeal.Pieces Cert.KernelIdeal.KArr
  Cert.KernelIdeal.KPts

variable (m : (ℓ : Loc nD τ sig) → Buf (Elt Ideal) ℓ) (ρ : Dev nD → PrngReg)

theorem hN : cfg0.N = 16 := N_0

/-- Position `i` of the query tile of point `t`. -/
def qpos (t : Fin cfg0.N) (i : Fin 1024) : Fin 4096 := ⟨1024 * (t.val % 4) + i.val, by have := i.isLt; omega⟩

/-- The chunks of a scratch array read at (channel, key). -/
theorem ch0_apply (X : Vec Ideal S128x4096 .bf16) (e : Fin 128) (j : Fin 1024) :
    ch0 X (ix2 e j) = X (ix2 e (Cert.Attn.pos 0 j)) := by
  show X _ = X _
  congr 1; funext a; apply Fin.ext
  match a with
  | ⟨0, _⟩ => show 0 + 1 * e.val = e.val; omega
  | ⟨1, _⟩ => show 0 + 1 * j.val = 1024 * 0 + j.val; omega
theorem ch1_apply (X : Vec Ideal S128x4096 .bf16) (e : Fin 128) (j : Fin 1024) :
    ch1 X (ix2 e j) = X (ix2 e (Cert.Attn.pos 1 j)) := by
  show X _ = X _
  congr 1; funext a; apply Fin.ext
  match a with
  | ⟨0, _⟩ => show 0 + 1 * e.val = e.val; omega
  | ⟨1, _⟩ => show 1024 + 1 * j.val = 1024 * 1 + j.val; omega
theorem ch2_apply (X : Vec Ideal S128x4096 .bf16) (e : Fin 128) (j : Fin 1024) :
    ch2 X (ix2 e j) = X (ix2 e (Cert.Attn.pos 2 j)) := by
  show X _ = X _
  congr 1; funext a; apply Fin.ext
  match a with
  | ⟨0, _⟩ => show 0 + 1 * e.val = e.val; omega
  | ⟨1, _⟩ => show 2048 + 1 * j.val = 1024 * 2 + j.val; omega
theorem ch3_apply (X : Vec Ideal S128x4096 .bf16) (e : Fin 128) (j : Fin 1024) :
    ch3 X (ix2 e j) = X (ix2 e (Cert.Attn.pos 3 j)) := by
  show X _ = X _
  congr 1; funext a; apply Fin.ext
  match a with
  | ⟨0, _⟩ => show 0 + 1 * e.val = e.val; omega
  | ⟨1, _⟩ => show 3072 + 1 * j.val = 1024 * 3 + j.val; omega

/-- The query tile read at (0, channel, position). -/
theorem qtile_apply (t : Fin cfg0.N) (x0 : Vec Ideal S1x128x4096 .f32) (cc : Fin 128) (i : Fin 1024) :
    qtile (grid0.coords t) x0 (ix3 (0 : Fin 1) cc i) = x0 (ix3 (0 : Fin 1) cc (qpos t i)) := by
  have hoff : k0_off1 (grid0.coords t) = ![0, 0, 1024 * (t.val % 4)] := (idx_facts t).2.2.2.2.2.2.2.2.2.2.2.2.2.2.2.2.2.2
  show x0 _ = x0 _
  congr 1; funext a; apply Fin.ext
  match a with
  | ⟨0, _⟩ => show k0_off1 (grid0.coords t) (0 : Fin 3) + 1 * 0 = 0; rw [hoff]; rfl
  | ⟨1, _⟩ => show k0_off1 (grid0.coords t) (1 : Fin 3) + 1 * cc.val = cc.val; rw [hoff]; show 0 + 1 * cc.val = cc.val; omega
  | ⟨2, _⟩ => show k0_off1 (grid0.coords t) (2 : Fin 3) + 1 * i.val = 1024 * (t.val % 4) + i.val; rw [hoff]
              show 1024 * (t.val % 4) + 1 * i.val = 1024 * (t.val % 4) + i.val; omega

/-- The projected keys of a batch's block, at (channel, key), from the windows' blocks at a point of that batch. -/
theorem kt_block (c : Dev nD) (t : Fin cfg0.N) (e : Fin 128) (j : Fin 4096) :
    k0_pay3 (F := Ideal) (xblk m c t) (wkblk m c t) (bkblk m c t) (ix2 e j)
      = Cert.Attn.kproj (aX m c) (aWk m c) (abk m c) (bOf t) e j := by
  rw [kproj_apply, bkblk_apply]
  unfold Cert.Attn.kproj
  congr 1
  exact Finset.sum_congr rfl fun cc _ => by rw [wkblk_apply, xblk_apply]
theorem vt_block (c : Dev nD) (t : Fin cfg0.N) (e : Fin 128) (j : Fin 4096) :
    k0_pay4 (F := Ideal) (xblk m c t) (wvblk m c t) (bvblk m c t) (ix2 e j)
      = Cert.Attn.kproj (aX m c) (aWv m c) (abv m c) (bOf t) e j := by
  rw [vproj_apply, bvblk_apply]
  unfold Cert.Attn.kproj
  congr 1
  exact Finset.sum_congr rfl fun cc _ => by rw [wvblk_apply, xblk_apply]

/-- THE SCRATCH INVARIANT: after point `n` the scratch arrays hold the projected keys and values of batch `n / 4`. -/
theorem scratch_inv (c : Dev nD) : ∀ (n : ℕ) (hn : n < cfg0.N),
    (∀ e j, ktAt m c n hn (ix2 e j) = Cert.Attn.kproj (aX m c) (aWk m c) (abk m c) (bOf ⟨n, hn⟩) e j)
    ∧ (∀ e j, vtAt m c n hn (ix2 e j) = Cert.Attn.kproj (aX m c) (aWv m c) (abv m c) (bOf ⟨n, hn⟩) e j)
  | n, hn => by
    by_cases h0 : n % 4 = 0
    · refine ⟨fun e j => ?_, fun e j => ?_⟩
      · rw [kt_A m c ⟨n, hn⟩ h0]; exact kt_block m c ⟨n, hn⟩ e j
      · rw [vt_A m c ⟨n, hn⟩ h0]; exact vt_block m c ⟨n, hn⟩ e j
    · have hpos : 0 < n := Nat.pos_of_ne_zero fun h => h0 (by rw [h])
      have hlt : n - 1 < cfg0.N := Nat.lt_of_le_of_lt (Nat.sub_le _ _) hn
      have ih := scratch_inv c (n - 1) hlt
      have hb : bOf ⟨n - 1, hlt⟩ = bOf ⟨n, hn⟩ := Fin.ext (by show (n - 1) / 4 = n / 4; omega)
      refine ⟨fun e j => ?_, fun e j => ?_⟩
      · rw [kt_B m c ⟨n, hn⟩ h0, ← hb]; exact ih.1 e j
      · rw [vt_B m c ⟨n, hn⟩ h0, ← hb]; exact ih.2 e j
  termination_by n => n
  decreasing_by omega

/-- The tile function over scratch contents that hold a batch's projections, at (0, channel, position). -/
theorem tileOf_apply (c : Dev nD) (t : Fin cfg0.N) (KT VT : Vec Ideal S128x4096 .bf16)
    (hK : ∀ e j, KT (ix2 e j) = Cert.Attn.kproj (aX m c) (aWk m c) (abk m c) (bOf t) e j)
    (hV : ∀ e j, VT (ix2 e j) = Cert.Attn.kproj (aX m c) (aWv m c) (abv m c) (bOf t) e j)
    (d : Fin 128) (i : Fin 1024) :
    tileOf (grid0.coords t) (xblk m c t) (wqblk m c t) (bqblk m c t) KT VT (ix3 (0 : Fin 1) d i)
      = Cert.Attn.kout (aX m c) (aWq m c) (abq m c) (aWk m c) (abk m c) (aWv m c) (abv m c) (bOf t) d (qpos t i) := by
  refine (tile_apply (qtile (grid0.coords t) (xblk m c t)) (wqblk m c t) (bqblk m c t)
    ![ch0 KT, ch1 KT, ch2 KT, ch3 KT] ![ch0 VT, ch1 VT, ch2 VT, ch3 VT] d i).trans ?_
  unfold Cert.Attn.kout
  have hq : ∀ e : Fin 128, (∑ cc : Fin 128, wqblk m c t (ix2 e cc) * qtile (grid0.coords t) (xblk m c t) (ix3 (0 : Fin 1) cc i))
      + bqblk m c t (ix2 e (0 : Fin 1)) = Cert.Attn.kproj (aX m c) (aWq m c) (abq m c) (bOf t) e (qpos t i) := fun e => by
    rw [bqblk_apply]
    unfold Cert.Attn.kproj
    congr 1
    exact Finset.sum_congr rfl fun cc _ => by rw [wqblk_apply, qtile_apply, xblk_apply]
  have hS : (fun (cx : Fin 4) (j : Fin 1024) => ∑ e : Fin 128,
        (((∑ cc : Fin 128, wqblk m c t (ix2 e cc) * qtile (grid0.coords t) (xblk m c t) (ix3 (0 : Fin 1) cc i))
          + bqblk m c t (ix2 e (0 : Fin 1))) * Cert.Attn.SC) * (![ch0 KT, ch1 KT, ch2 KT, ch3 KT] : Fin 4 → Vec Ideal S128x1024 .bf16) cx (ix2 e j))
      = fun (cx : Fin 4) (j : Fin 1024) => ∑ e : Fin 128, (Cert.Attn.kproj (aX m c) (aWq m c) (abq m c) (bOf t) e (qpos t i) * Cert.Attn.SC)
          * Cert.Attn.kproj (aX m c) (aWk m c) (abk m c) (bOf t) e (Cert.Attn.pos cx j) := by
    funext cx j
    refine Finset.sum_congr rfl fun e _ => ?_
    rw [hq e]
    congr 1
    fin_cases cx
    · exact (ch0_apply KT e j).trans (hK e _)
    · exact (ch1_apply KT e j).trans (hK e _)
    · exact (ch2_apply KT e j).trans (hK e _)
    · exact (ch3_apply KT e j).trans (hK e _)
  have hVV : (fun (cx : Fin 4) (e : Fin 128) (j : Fin 1024) => (![ch0 VT, ch1 VT, ch2 VT, ch3 VT] : Fin 4 → Vec Ideal S128x1024 .bf16) cx (ix2 e j))
      = fun (cx : Fin 4) (e : Fin 128) (j : Fin 1024) => Cert.Attn.kproj (aX m c) (aWv m c) (abv m c) (bOf t) e (Cert.Attn.pos cx j) := by
    funext cx e j
    fin_cases cx
    · exact (ch0_apply VT e j).trans (hV e _)
    · exact (ch1_apply VT e j).trans (hV e _)
    · exact (ch2_apply VT e j).trans (hV e _)
    · exact (ch3_apply VT e j).trans (hV e _)
  rw [hS, hVV]

/-- THE OUTPUT TILE after point `t`, at (0, channel d, position i). -/
theorem out_at (c : Dev nD) (t : Fin cfg0.N) (d : Fin 128) (i : Fin 1024) :
    outAt m c t (ix3 (0 : Fin 1) d i) = Cert.Attn.kout (aX m c) (aWq m c) (abq m c) (aWk m c) (abk m c) (aWv m c) (abv m c) (bOf t) d (qpos t i) := by
  by_cases h0 : t.val % 4 = 0
  · rw [out_A_pt m c t h0]
    exact tileOf_apply m c t _ _ (kt_block m c t) (vt_block m c t) d i
  · have hlt : t.val - 1 < cfg0.N := Nat.lt_of_le_of_lt (Nat.sub_le _ _) t.isLt
    have hb : bOf ⟨t.val - 1, hlt⟩ = bOf t := Fin.ext (by show (t.val - 1) / 4 = t.val / 4; omega)
    have ih := scratch_inv m c (t.val - 1) hlt
    rw [out_B_pt m c t h0]
    exact tileOf_apply m c t _ _ (fun e j => by rw [← hb]; exact ih.1 e j) (fun e j => by rw [← hb]; exact ih.2 e j) d i

end Cert.KernelIdeal.KValue

end
-- ==== Proof.KernelFinal.lean ====
/-
  The kernel program's run, read: its result is the reshape of the array whose entry at (batch, channel, position) is
  the kernel's spelling of attention of the argument arrays.

  Point `t` writes back the block at batch `t / 4`, positions `1024 · (t % 4) … + 1023`; the point that covers index
  (b, d, n) is `4 b + n / 1024`. After the region the program reshapes the array to batch × channel × 64 × 64.
-/
import proofs.«402231_j36112085024790_3_alg».proof.Proof.KernelValue

set_option maxRecDepth 16384

noncomputable section

namespace Cert.KernelIdeal.KFinal

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen Cert.KernelIdeal.Tile Cert.KernelIdeal.Pieces Cert.KernelIdeal.KArr
  Cert.KernelIdeal.KPts Cert.KernelIdeal.KValue

variable (m : (ℓ : Loc nD τ sig) → Buf (Elt Ideal) ℓ) (ρ : Dev nD → PrngReg)

/-- The result array before the last reshape, as one function of the argument arrays. -/
def G (c : Dev nD) : S4x128x4096.Idx → EReal := fun idx =>
  Cert.Attn.kout (aX m c) (aWq m c) (abq m c) (aWk m c) (abk m c) (aWv m c) (abv m c) ⟨(idx 0).val, (idx 0).isLt⟩ ⟨(idx 1).val, (idx 1).isLt⟩ ⟨(idx 2).val, (idx 2).isLt⟩

theorem G_apply (c : Dev nD) (bt : Fin 4) (d : Fin 128) (n : Fin 4096) :
    G m c (ix3 bt d n) = Cert.Attn.kout (aX m c) (aWq m c) (abq m c) (aWk m c) (abk m c) (aWv m c) (abv m c) bt d n := rfl

/-- The output tile after point `t` at any index of the block. -/
theorem out_at_idx (c : Dev nD) (t : Fin cfg0.N) (y : S1x128x1024.Idx) :
    outAt m c t y = Cert.Attn.kout (aX m c) (aWq m c) (abq m c) (aWk m c) (abk m c) (aWv m c) (abv m c) (bOf t) ⟨(y 1).val, (y 1).isLt⟩ (qpos t ⟨(y 2).val, (y 2).isLt⟩) := by
  have hy : y = ix3 (0 : Fin 1) (⟨(y 1).val, (y 1).isLt⟩ : Fin 128) (⟨(y 2).val, (y 2).isLt⟩ : Fin 1024) := by
    funext a
    match a with
    | ⟨0, _⟩ => exact Subsingleton.elim (α := Fin 1) _ _
    | ⟨1, _⟩ => rfl
    | ⟨2, _⟩ => rfl
  rw [hy]
  exact out_at m c t _ _

/-- WHAT POINT `t` WRITES BACK is block `t` of `G`. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  funext y
  rw [View.read_apply]
  show outAt m c t y = G m c (((cfg0.win 7).blk t).view.emb y)
  rw [out_at_idx]
  have e0 : win0_7.index t (0 : Fin 3) = t.val / 4 := (idx_facts t).2.2.2.2.2.2.2.2.2.2.2.2.2.2.2.1
  have e1 : win0_7.index t (1 : Fin 3) = 0 := (idx_facts t).2.2.2.2.2.2.2.2.2.2.2.2.2.2.2.2.1
  have e2 : win0_7.index t (2 : Fin 3) = t.val % 4 := (idx_facts t).2.2.2.2.2.2.2.2.2.2.2.2.2.2.2.2.2.1
  unfold G
  congr 1
  · apply Fin.ext
    show t.val / 4 = win0_7.index t (0 : Fin 3) * 1 + 1 * (y 0).val
    have : (y 0).val = 0 := by have h := (y 0).isLt; exact Nat.lt_one_iff.mp h
    omega
  · apply Fin.ext
    show (y 1).val = win0_7.index t (1 : Fin 3) * 128 + 1 * (y 1).val
    omega
  · apply Fin.ext
    show 1024 * (t.val % 4) + (y 2).val = win0_7.index t (2 : Fin 3) * 1024 + 1 * (y 2).val
    omega

/-- An index of the array is in point `t`'s block iff each coordinate is in the block's range on its axis. -/
theorem mem_blk (t : Fin cfg0.N) (i : S4x128x4096.Idx) :
    i ∈ ((cfg0.win 7).blk t).view.set ↔ ∀ a : Fin 3, win0_7.index t a * S1x128x1024.size a ≤ (i a).val
      ∧ (i a).val < win0_7.index t a * S1x128x1024.size a + S1x128x1024.size a := by
  show i ∈ ((View.whole main_v4).slice (win0_7.rect t)).set ↔ _
  rw [View.set_slice_whole, Rect.mem_set_unit]
  exact Iff.rfl

/-- THE ARRAY after the run is `G`: every index lies in the block of the point `4 · batch + position / 1024`. -/
theorem final (c : Dev nD) : (dats m 0 c).arrAt 7 cfg0.N = G m c :=
  (dats m 0 c).arrAt_eq_of_cover 7 (G m c) (fun t _ => flushed_eq m c t) fun i => by
    have h0 : (i 0).val < 4 := (i 0).isLt
    have h1 : (i 1).val < 128 := (i 1).isLt
    have h2 : (i 2).val < 4096 := (i 2).isLt
    have hN : cfg0.N = 16 := N_0
    let t : Fin cfg0.N := ⟨4 * (i 0).val + (i 2).val / 1024, by omega⟩
    have e0 : win0_7.index t (0 : Fin 3) = t.val / 4 := (idx_facts t).2.2.2.2.2.2.2.2.2.2.2.2.2.2.2.1
    have e1 : win0_7.index t (1 : Fin 3) = 0 := (idx_facts t).2.2.2.2.2.2.2.2.2.2.2.2.2.2.2.2.1
    have e2 : win0_7.index t (2 : Fin 3) = t.val % 4 := (idx_facts t).2.2.2.2.2.2.2.2.2.2.2.2.2.2.2.2.2.1
    have ht : t.val = 4 * (i 0).val + (i 2).val / 1024 := rfl
    refine ⟨t, flush0_7 t, ?_⟩
    rw [mem_blk]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 128 ≤ (i 1).val ∧ (i 1).val < win0_7.index t (1 : Fin 3) * 128 + 128; omega
    | ⟨2, _⟩ => show win0_7.index t (2 : Fin 3) * 1024 ≤ (i 2).val ∧ (i 2).val < win0_7.index t (2 : Fin 3) * 1024 + 1024; omega

/-- The program's result: the array after the region, reshaped by the one host operation after it. -/
theorem tail_eq (c : Dev nD) :
    Pipeline.afterTail₀ cfgs (dats m) 0 (V0 m) [hostOps1] c main_v5
      = shapeCast S4x128x64x64 (G m c) shapeCasts_S4x128x4096_S4x128x64x64 := by
  unfold Pipeline.afterTail₀
  show StableHlo.after hostOps1 _ (Proc.devRef .tc main_v5) = _
  after_results
  exact congrArg (fun v => shapeCast S4x128x64x64 v shapeCasts_S4x128x4096_S4x128x64x64)
    ((Pipeline.withArrays_arr spec0 launch0.win.arr_inj c _ _ 7).trans (final m c))

/-- THE RUN, READ: the result at the reshape of `G`, the seven arguments unchanged. -/
theorem run : θ_run defs (onTc (τ := τ) (main (F := Ideal))) ⟨m, fun _ => 0, ρ⟩ fun r => ∀ c : Dev nD,
      r.2.mem ((c : Thread nD τ).loc main_v5) = shapeCast S4x128x64x64 (G m c) shapeCasts_S4x128x4096_S4x128x64x64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨
      ((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KFinal

end
-- ==== Proof.RefValue.lean ====
/-
  The reference's result before its last reshape, read at (batch, channel, position): the reference's spelling of
  attention (`Attn.rout`) of the argument arrays read by coordinates.
-/
import proofs.«402231_j36112085024790_3_alg».proof.Proof.Gen.ReferenceIdeal.Read
import proofs.«402231_j36112085024790_3_alg».proof.Proof.Spec

noncomputable section

namespace Cert.ReferenceIdeal.RefValue

open Idealize.ShloMosaic Idealize.ShloMosaic.ValueIdx Cert.ReferenceIdeal Cert.ReferenceIdeal.Read

/-- The transposed input `%1` at (bt, n, c) is the image at (bt, c, n / 64, n % 64). -/
theorem v1_apply (x0 : (⟨S4x128x64x64, .f32⟩ : BufTy).Contents (Elt Ideal)) (bt : Fin 4) (n : Fin 4096) (c : Fin 128) :
    val_main_v1 (F := Ideal) x0 (ix3 bt n c) = Cert.Attn.X3 x0 bt c n := by
  rw [val_main_v1_apply, val_main_v0_apply]
  unfold Cert.Attn.X3
  refine congrArg x0 (funext fun a => Fin.ext ?_)
  have hn := n.isLt
  have hc := c.isLt
  have hb := bt.isLt
  match a with
  | ⟨0, _⟩ => show ((bt.val * 128 + c.val) * 4096 + n.val) / 524288 = bt.val; omega
  | ⟨1, _⟩ => show ((bt.val * 128 + c.val) * 4096 + n.val) / 4096 % 128 = c.val; omega
  | ⟨2, _⟩ => show ((bt.val * 128 + c.val) * 4096 + n.val) / 64 % 64 = n.val / 64; omega
  | ⟨3, _⟩ => show ((bt.val * 128 + c.val) * 4096 + n.val) % 64 = n.val % 64; omega

/-- The query projection `%5` at (bt, n, d). -/
theorem v5_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (bt : Fin 4) (n : Fin 4096) (d : Fin 128) :
    val_main_v5 (F := Ideal) x0 x1 x2 (ix3 bt n d)
      = Cert.Attn.rproj (Cert.Attn.X3 x0) (Cert.Attn.M2 x1) (Cert.Attn.V1 x2) bt n d := by
  rw [val_main_v5_apply, Ideal.addf_def, val_main_v2_apply, val_main_v4_apply, val_main_v3_apply]
  unfold Cert.Attn.rproj Cert.Attn.M2 Cert.Attn.V1
  congr 1
  · refine Finset.sum_congr rfl fun k _ => ?_
    have el : lidx_main_v2 (ix3 bt n d) k = ix3 bt n k := funext fun a => Fin.ext (by
      match a with | ⟨0, _⟩ => rfl | ⟨1, _⟩ => rfl | ⟨2, _⟩ => rfl)
    have er : ridx_main_v2 (ix3 bt n d) k = ix2 d k := funext fun a => Fin.ext (by
      match a with | ⟨0, _⟩ => rfl | ⟨1, _⟩ => rfl)
    rw [el, er, v1_apply]
  · exact congrArg x2 (funext fun a => Fin.ext (by match a with | ⟨0, _⟩ => rfl))

/-- The key projection `%9` at (bt, n, d). -/
theorem v9_apply (x0 : (⟨S4x128x64x64, .f32⟩ : BufTy).Contents (Elt Ideal)) (x3 : (⟨S128x128, .f32⟩ : BufTy).Contents (Elt Ideal))
    (x4 : (⟨S128, .f32⟩ : BufTy).Contents (Elt Ideal)) (bt : Fin 4) (n : Fin 4096) (d : Fin 128) :
    val_main_v9 (F := Ideal) x0 x3 x4 (ix3 bt n d)
      = Cert.Attn.rproj (Cert.Attn.X3 x0) (Cert.Attn.M2 x3) (Cert.Attn.V1 x4) bt n d := by
  rw [val_main_v9_apply, Ideal.addf_def, val_main_v6_apply, val_main_v8_apply, val_main_v7_apply]
  unfold Cert.Attn.rproj Cert.Attn.M2 Cert.Attn.V1
  congr 1
  · refine Finset.sum_congr rfl fun k _ => ?_
    have el : lidx_main_v6 (ix3 bt n d) k = ix3 bt n k := funext fun a => Fin.ext (by
      match a with | ⟨0, _⟩ => rfl | ⟨1, _⟩ => rfl | ⟨2, _⟩ => rfl)
    have er : ridx_main_v6 (ix3 bt n d) k = ix2 d k := funext fun a => Fin.ext (by
      match a with | ⟨0, _⟩ => rfl | ⟨1, _⟩ => rfl)
    rw [el, er, v1_apply]
  · exact congrArg x4 (funext fun a => Fin.ext (by match a with | ⟨0, _⟩ => rfl))

/-- The value projection `%13` at (bt, n, d). -/
theorem v13_apply (x0 : (⟨S4x128x64x64, .f32⟩ : BufTy).Contents (Elt Ideal)) (x5 : (⟨S128x128, .f32⟩ : BufTy).Contents (Elt Ideal))
    (x6 : (⟨S128, .f32⟩ : BufTy).Contents (Elt Ideal)) (bt : Fin 4) (n : Fin 4096) (d : Fin 128) :
    val_main_v13 (F := Ideal) x0 x5 x6 (ix3 bt n d)
      = Cert.Attn.rproj (Cert.Attn.X3 x0) (Cert.Attn.M2 x5) (Cert.Attn.V1 x6) bt n d := by
  rw [val_main_v13_apply, Ideal.addf_def, val_main_v10_apply, val_main_v12_apply, val_main_v11_apply]
  unfold Cert.Attn.rproj Cert.Attn.M2 Cert.Attn.V1
  congr 1
  · refine Finset.sum_congr rfl fun k _ => ?_
    have el : lidx_main_v10 (ix3 bt n d) k = ix3 bt n k := funext fun a => Fin.ext (by
      match a with | ⟨0, _⟩ => rfl | ⟨1, _⟩ => rfl | ⟨2, _⟩ => rfl)
    have er : ridx_main_v10 (ix3 bt n d) k = ix2 d k := funext fun a => Fin.ext (by
      match a with | ⟨0, _⟩ => rfl | ⟨1, _⟩ => rfl)
    rw [el, er, v1_apply]
  · exact congrArg x6 (funext fun a => Fin.ext (by match a with | ⟨0, _⟩ => rfl))

/-- The scaled score `%16` at (bt, i, j). -/
theorem v16_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (bt : Fin 4) (i j : Fin 4096) :
    val_main_v16 (F := Ideal) x0 x1 x2 x3 x4 (ix3 bt i j) = Cert.Attn.rscore (Cert.Attn.X3 x0) (Cert.Attn.M2 x1) (Cert.Attn.V1 x2) (Cert.Attn.M2 x3) (Cert.Attn.V1 x4) bt i j := by
  rw [val_main_v16_apply, Ideal.mulf_def, val_main_v14_apply, val_main_v15_apply, val_main_cst_apply, Ideal.ofBits_def]
  unfold Cert.Attn.rscore
  congr 1
  refine Finset.sum_congr rfl fun k _ => ?_
  have el : lidx_main_v14 (ix3 bt i j) k = ix3 bt i k := funext fun a => Fin.ext (by
    match a with | ⟨0, _⟩ => rfl | ⟨1, _⟩ => rfl | ⟨2, _⟩ => rfl)
  have er : ridx_main_v14 (ix3 bt i j) k = ix3 bt j k := funext fun a => Fin.ext (by
    match a with | ⟨0, _⟩ => rfl | ⟨1, _⟩ => rfl | ⟨2, _⟩ => rfl)
  rw [el, er, v5_apply, v9_apply]

/-- The row maximum `%17` at (bt, i): the fold of `max` from `-∞` over the row's scores. -/
theorem v17_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (bt : Fin 4) (i : Fin 4096) :
    val_main_v17 (F := Ideal) x0 x1 x2 x3 x4 (ix2 bt i)
      = (Finset.univ : Finset (Fin 4096)).fold max Cert.Attn.NEG (Cert.Attn.rscore (Cert.Attn.X3 x0) (Cert.Attn.M2 x1) (Cert.Attn.V1 x2) (Cert.Attn.M2 x3) (Cert.Attn.V1 x4) bt i) := by
  unfold val_main_v17
  have h : S4x4096x4096.Reduces [2] S4x4096 := by decide
  rw [Host.reduce_eq_fold_single FloatOps.maximumf _ _ Facts₀.reducesTo_S4x4096x4096_S4x4096_d2 h Facts₀.h_S_]
  have hf : (val_main_v16 (F := Ideal) x0 x1 x2 x3 x4 ∘ h.lift (ix2 bt i)) = Cert.Attn.rscore (Cert.Attn.X3 x0) (Cert.Attn.M2 x1) (Cert.Attn.V1 x2) (Cert.Attn.M2 x3) (Cert.Attn.V1 x4) bt i := funext fun k => by
    have e : h.lift (ix2 bt i) k = ix3 bt i (⟨k.val, k.isLt⟩ : Fin 4096) := funext fun c => Fin.ext (by
      match c with | ⟨0, _⟩ => rfl | ⟨1, _⟩ => rfl | ⟨2, _⟩ => rfl)
    show val_main_v16 (F := Ideal) x0 x1 x2 x3 x4 (h.lift (ix2 bt i) k) = _
    rw [e, v16_apply]
    rfl
  rw [hf]
  rfl

/-- The guarded maximum `%19` at (bt, i). -/
theorem v19_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (bt : Fin 4) (i : Fin 4096) :
    val_main_v19 (F := Ideal) x0 x1 x2 x3 x4 (ix2 bt i) = Cert.Attn.rmax (Cert.Attn.X3 x0) (Cert.Attn.M2 x1) (Cert.Attn.V1 x2) (Cert.Attn.M2 x3) (Cert.Attn.V1 x4) bt i := by
  rw [val_main_v19_apply, Ideal.maximumf_def, val_main_v18_apply, val_main_cst_1_apply, Ideal.ofBits_def, v17_apply]
  rfl

/-- The unnormalised weight `%23` at (bt, i, j). -/
theorem v23_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (bt : Fin 4) (i j : Fin 4096) :
    val_main_v23 (F := Ideal) x0 x1 x2 x3 x4 (ix3 bt i j) = Cert.Attn.rexp (Cert.Attn.X3 x0) (Cert.Attn.M2 x1) (Cert.Attn.V1 x2) (Cert.Attn.M2 x3) (Cert.Attn.V1 x4) bt i j := by
  rw [val_main_v23_apply, Ideal.hostUnary_exp_def, val_main_v22_apply, Ideal.subf_def, v16_apply, val_main_v21_apply,
    val_main_v20_apply]
  have e : idx_main_v20 (idx_main_v21 (ix3 bt i j)) = ix2 bt i := funext fun a => Fin.ext (by
    match a with | ⟨0, _⟩ => rfl | ⟨1, _⟩ => rfl)
  rw [e, v19_apply]
  rfl

/-- The row sum `%24` at (bt, i). -/
theorem v24_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (bt : Fin 4) (i : Fin 4096) :
    val_main_v24 (F := Ideal) x0 x1 x2 x3 x4 (ix2 bt i) = Cert.Attn.rden (Cert.Attn.X3 x0) (Cert.Attn.M2 x1) (Cert.Attn.V1 x2) (Cert.Attn.M2 x3) (Cert.Attn.V1 x4) bt i := by
  rw [val_main_v24_apply, val_main_cst_2_apply, Ideal.ofBits_def]
  unfold Cert.Attn.rden
  congr 1
  refine Finset.sum_congr rfl fun k _ => ?_
  have e : idx_main_v24 (ix2 bt i) k = ix3 bt i k := funext fun a => Fin.ext (by
    match a with | ⟨0, _⟩ => rfl | ⟨1, _⟩ => rfl | ⟨2, _⟩ => rfl)
  rw [e, v23_apply]

/-- The normalised weight `%27` at (bt, i, j). -/
theorem v27_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (bt : Fin 4) (i j : Fin 4096) :
    val_main_v27 (F := Ideal) x0 x1 x2 x3 x4 (ix3 bt i j)
      = Ideal.div (Cert.Attn.rexp (Cert.Attn.X3 x0) (Cert.Attn.M2 x1) (Cert.Attn.V1 x2) (Cert.Attn.M2 x3) (Cert.Attn.V1 x4) bt i j) (Cert.Attn.rden (Cert.Attn.X3 x0) (Cert.Attn.M2 x1) (Cert.Attn.V1 x2) (Cert.Attn.M2 x3) (Cert.Attn.V1 x4) bt i) := by
  rw [val_main_v27_apply, Ideal.hostDivf_def, v23_apply, val_main_v26_apply, val_main_v25_apply]
  have e : idx_main_v25 (idx_main_v26 (ix3 bt i j)) = ix2 bt i := funext fun a => Fin.ext (by
    match a with | ⟨0, _⟩ => rfl | ⟨1, _⟩ => rfl)
  rw [e, v24_apply]

/-- The transposed result `%29` at (bt, d, n). -/
theorem ref_apply (x0 : (⟨S4x128x64x64, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (bt : Fin 4) (d : Fin 128) (n : Fin 4096) :
    val_main_v29 (F := Ideal) x0 x1 x2 x3 x4 x5 x6 (ix3 bt d n)
      = Cert.Attn.rout (Cert.Attn.X3 x0) (Cert.Attn.M2 x1) (Cert.Attn.V1 x2) (Cert.Attn.M2 x3) (Cert.Attn.V1 x4)
          (Cert.Attn.M2 x5) (Cert.Attn.V1 x6) bt d n := by
  rw [val_main_v29_apply, val_main_v28_apply]
  unfold Cert.Attn.rout
  refine Finset.sum_congr rfl fun k _ => ?_
  have el : lidx_main_v28 (idx_main_v29 (ix3 bt d n)) k = ix3 bt n k := funext fun a => Fin.ext (by
    match a with | ⟨0, _⟩ => rfl | ⟨1, _⟩ => rfl | ⟨2, _⟩ => rfl)
  have er : ridx_main_v28 (idx_main_v29 (ix3 bt d n)) k = ix3 bt k d := funext fun a => Fin.ext (by
    match a with | ⟨0, _⟩ => rfl | ⟨1, _⟩ => rfl | ⟨2, _⟩ => rfl)
  rw [el, er, v27_apply, v13_apply]

end Cert.ReferenceIdeal.RefValue

end
-- ==== Proof.Softmax.lean ====
/-
  The running softmax in four chunks equals the plain softmax, on finite inputs.

  Finite inputs are coercions of reals, and so is every intermediate of both spellings: products, sums, differences,
  exponentials, and the maxima (a maximum folded from `-∞` over a nonempty family of reals is a real; which real it
  is never matters). Over the reals the recurrence telescopes: rescaling a sum of `exp (s j - m)` by `exp (m - m')`
  gives the sum of `exp (s j - m')`, so after four chunks the denominator is `∑ exp (s j - m₃)` over all 4096 keys
  and the numerators are the same sums weighted by the values. A softmax does not depend on the shift, so the
  kernel's quotient (shifted by its last running maximum) equals the reference's weighted sum (shifted by the row
  maximum). The scale commutes out of the score sum, and the two projections differ by the order of a product.
-/
import proofs.«402231_j36112085024790_3_alg».proof.Proof.Spec

noncomputable section

namespace Cert.Attn

open Idealize.ShloMosaic

namespace Sm

/-! ### Over the reals -/

/-- Moving the shift of a weighted sum of exponentials from `m` to `m'` costs the factor `exp (m - m')`. -/
theorem rescale {ι : Type} (I : Finset ι) (t w : ι → ℝ) (m m' : ℝ) :
    (∑ i ∈ I, Real.exp (t i - m) * w i) * Real.exp (m - m') = ∑ i ∈ I, Real.exp (t i - m') * w i := by
  rw [Finset.sum_mul]
  refine Finset.sum_congr rfl fun i _ => ?_
  have h : Real.exp (t i - m') = Real.exp (t i - m) * Real.exp (m - m') := by
    rw [← Real.exp_add]; congr 1; ring
  rw [h]; ring

theorem rescale1 {ι : Type} (I : Finset ι) (t : ι → ℝ) (m m' : ℝ) :
    (∑ i ∈ I, Real.exp (t i - m)) * Real.exp (m - m') = ∑ i ∈ I, Real.exp (t i - m') := by
  have := rescale I t (fun _ => 1) m m'
  simpa using this

/-- The four-chunk recurrence telescopes: every chunk ends up shifted by the last maximum. -/
theorem tele4 (s w : Fin 4 → Fin 1024 → ℝ) (m0 m1 m2 m3 : ℝ) :
    (((∑ j, Real.exp (s 0 j - m0) * w 0 j) * Real.exp (m0 - m1) + ∑ j, Real.exp (s 1 j - m1) * w 1 j)
        * Real.exp (m1 - m2) + ∑ j, Real.exp (s 2 j - m2) * w 2 j) * Real.exp (m2 - m3)
        + ∑ j, Real.exp (s 3 j - m3) * w 3 j
      = ∑ c : Fin 4, ∑ j, Real.exp (s c j - m3) * w c j := by
  rw [Fin.sum_univ_four]
  simp only [add_mul, rescale]

theorem tele4_1 (s : Fin 4 → Fin 1024 → ℝ) (m0 m1 m2 m3 : ℝ) :
    (((∑ j, Real.exp (s 0 j - m0)) * Real.exp (m0 - m1) + ∑ j, Real.exp (s 1 j - m1))
        * Real.exp (m1 - m2) + ∑ j, Real.exp (s 2 j - m2)) * Real.exp (m2 - m3)
        + ∑ j, Real.exp (s 3 j - m3)
      = ∑ c : Fin 4, ∑ j, Real.exp (s c j - m3) := by
  rw [Fin.sum_univ_four]
  simp only [add_mul, rescale1]

/-- A softmax does not depend on the shift subtracted in the exponent. -/
theorem shift_inv {ι : Type} (I : Finset ι) (hI : I.Nonempty) (t v : ι → ℝ) (M M' : ℝ) :
    ∑ j ∈ I, Real.exp (t j - M) * (1 / ∑ k ∈ I, Real.exp (t k - M)) * v j
      = (∑ j ∈ I, Real.exp (t j - M') * v j) / (∑ k ∈ I, Real.exp (t k - M')) := by
  have hpos : ∀ m : ℝ, 0 < ∑ k ∈ I, Real.exp (t k - m) := fun m =>
    Finset.sum_pos (fun i _ => Real.exp_pos _) hI
  have h1 : (∑ k ∈ I, Real.exp (t k - M)) = (∑ k ∈ I, Real.exp (t k - M')) * Real.exp (M' - M) :=
    (rescale1 I t M' M).symm
  have h2 : (∑ j ∈ I, Real.exp (t j - M) * v j) = (∑ j ∈ I, Real.exp (t j - M') * v j) * Real.exp (M' - M) :=
    (rescale I t v M' M).symm
  have h3 : ∑ j ∈ I, Real.exp (t j - M) * (1 / ∑ k ∈ I, Real.exp (t k - M)) * v j
      = (∑ j ∈ I, Real.exp (t j - M) * v j) * (1 / ∑ k ∈ I, Real.exp (t k - M)) := by
    rw [Finset.sum_mul]; refine Finset.sum_congr rfl fun i _ => ?_; ring
  rw [h3, h2, h1]
  have hne : (∑ k ∈ I, Real.exp (t k - M')) ≠ 0 := (hpos M').ne'
  have hne' : Real.exp (M' - M) ≠ 0 := (Real.exp_pos _).ne'
  field_simp

/-- Key `pos c j` runs over every key of the row exactly once. -/
def posEquiv : Fin 4 × Fin 1024 ≃ Fin 4096 where
  toFun p := pos p.1 p.2
  invFun n := (⟨n.val / 1024, by have := n.isLt; omega⟩, ⟨n.val % 1024, Nat.mod_lt _ (by decide)⟩)
  left_inv := by
    rintro ⟨c, j⟩
    have := c.isLt; have := j.isLt
    ext <;> simp only [pos] <;> omega
  right_inv := by
    intro n
    ext; simp only [pos]; omega

theorem sum_chunks (f : Fin 4096 → ℝ) : ∑ c : Fin 4, ∑ j : Fin 1024, f (pos c j) = ∑ n : Fin 4096, f n := by
  rw [← Equiv.sum_comp posEquiv f, Fintype.sum_prod_type]
  rfl

/-! ### Extended reals that are reals -/

theorem coe_sum {ι : Type} (I : Finset ι) (f : ι → ℝ) :
    ((∑ i ∈ I, f i : ℝ) : EReal) = ∑ i ∈ I, (f i : EReal) := by
  classical
  induction I using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem NEG_eq : NEG = ⊥ := by simp [NEG, Ideal.ofBits, Ideal.ieee]
theorem ZERO_eq : ZERO = 0 := by simp [ZERO, Ideal.ofBits, Ideal.ieee]
theorem ONE_eq : ONE = 1 := by simp [ONE, Ideal.ofBits, Ideal.ieee, -EReal.coe_mul]; norm_num
theorem SC_eq : ∃ r : ℝ, SC = ↑r := by
  refine ⟨SC.toReal, (EReal.coe_toReal ?_ ?_).symm⟩
  · simp [SC, Ideal.ofBits, Ideal.ieee, -EReal.coe_mul]
  · simp [SC, Ideal.ofBits, Ideal.ieee, -EReal.coe_mul]

/-- The maximum, folded from `-∞`, of a nonempty finite family of reals is a real. -/
theorem fold_coe {ι : Type} [Fintype ι] [Nonempty ι] (sr : ι → ℝ) :
    ∃ M : ℝ, (Finset.univ : Finset ι).fold max NEG (fun j => (sr j : EReal)) = ↑M := by
  rw [NEG_eq]
  refine ⟨((Finset.univ : Finset ι).fold max ⊥ (fun j => (sr j : EReal))).toReal, (EReal.coe_toReal ?_ ?_).symm⟩
  · apply ne_of_lt
    rw [Finset.fold_max_lt]
    exact ⟨bot_lt_top, fun x _ => EReal.coe_lt_top _⟩
  · obtain ⟨i⟩ := ‹Nonempty ι›
    apply ne_of_gt
    apply lt_of_lt_of_le (EReal.bot_lt_coe (sr i))
    rw [Finset.le_fold_max]
    exact Or.inr ⟨i, Finset.mem_univ _, le_rfl⟩

/-- One chunk from a state of reals, on real scores and values: the new maximum is some real `m'`, and the
    denominator and numerators are the old ones rescaled plus the chunk's sums, all shifted by `m'`. -/
theorem step_coe (m L : ℝ) (A : Fin 128 → ℝ) (sr : Fin 1024 → ℝ) (vr : Fin 128 → Fin 1024 → ℝ) :
    ∃ m' : ℝ, step ⟨↑m, ↑L, fun d => ↑(A d)⟩ (fun j => ↑(sr j)) (fun d j => ↑(vr d j))
      = ⟨↑m', ↑(L * Real.exp (m - m') + ∑ j, Real.exp (sr j - m')),
          fun d => ↑(A d * Real.exp (m - m') + ∑ j, Real.exp (sr j - m') * vr d j)⟩ := by
  obtain ⟨M, hM⟩ := fold_coe sr
  refine ⟨max m M, ?_⟩
  simp only [step, hM, coe_max]
  simp only [← EReal.coe_sub, Ideal.exp_coe, ← EReal.coe_mul, ← coe_sum, ← EReal.coe_add]

/-- The first chunk, from maximum `-∞` and zero sums: the old terms vanish (`exp (-∞) = 0`). -/
theorem step_init_coe (sr : Fin 1024 → ℝ) (vr : Fin 128 → Fin 1024 → ℝ) :
    ∃ m' : ℝ, step init (fun j => ↑(sr j)) (fun d j => ↑(vr d j))
      = ⟨↑m', ↑(∑ j, Real.exp (sr j - m')), fun d => ↑(∑ j, Real.exp (sr j - m') * vr d j)⟩ := by
  obtain ⟨M, hM⟩ := fold_coe sr
  refine ⟨M, ?_⟩
  simp only [step, init, hM]
  simp only [NEG_eq, ZERO_eq, max_bot_left, EReal.bot_sub, Ideal.exp_bot, mul_zero, zero_add]
  simp only [← EReal.coe_sub, Ideal.exp_coe, ← EReal.coe_mul, ← coe_sum]

/-- Four chunks of real scores and values: for some real `m`, the state holds `m`, the sum of the weights
    `exp (s - m)` over all chunks, and the weighted sums of the values. -/
theorem run4_coe (sr : Fin 4 → Fin 1024 → ℝ) (vr : Fin 4 → Fin 128 → Fin 1024 → ℝ) :
    ∃ m : ℝ, run4 (fun c j => ↑(sr c j)) (fun c d j => ↑(vr c d j))
      = ⟨↑m, ↑(∑ c, ∑ j, Real.exp (sr c j - m)), fun d => ↑(∑ c, ∑ j, Real.exp (sr c j - m) * vr c d j)⟩ := by
  obtain ⟨m0, h0⟩ := step_init_coe (sr 0) (vr 0)
  obtain ⟨m1, h1⟩ := step_coe m0 _ _ (sr 1) (vr 1)
  obtain ⟨m2, h2⟩ := step_coe m1 _ _ (sr 2) (vr 2)
  obtain ⟨m3, h3⟩ := step_coe m2 _ _ (sr 3) (vr 3)
  refine ⟨m3, ?_⟩
  unfold run4
  rw [h0, h1, h2, h3]
  congr 1
  · rw [tele4_1 sr m0 m1 m2 m3]
  · funext d
    rw [← tele4 sr (fun c j => vr c d j) m0 m1 m2 m3]

theorem fin_coe (m L : ℝ) (A : Fin 128 → ℝ) (hL : L ≠ 0) (d : Fin 128) :
    fin ⟨↑m, ↑L, fun d => ↑(A d)⟩ d = ↑(A d / L) := by
  simp only [fin, ONE_eq]
  rw [Ideal.div_coe hL, one_mul, ← EReal.coe_mul, mul_one_div]

/-! ### The two spellings on real inputs -/

/-- A projection over the reals. -/
def projR (x : Fin 4 → Fin 128 → Fin 4096 → ℝ) (W : Fin 128 → Fin 128 → ℝ) (b : Fin 128 → ℝ)
    (bt : Fin 4) (d : Fin 128) (n : Fin 4096) : ℝ :=
  (∑ c : Fin 128, W d c * x bt c n) + b d

theorem kproj_coe (x : Fin 4 → Fin 128 → Fin 4096 → ℝ) (W : Fin 128 → Fin 128 → ℝ) (b : Fin 128 → ℝ)
    (bt : Fin 4) (d : Fin 128) (n : Fin 4096) :
    kproj (fun bt c n => ↑(x bt c n)) (fun d c => ↑(W d c)) (fun d => ↑(b d)) bt d n = ↑(projR x W b bt d n) := by
  simp only [kproj, projR, EReal.coe_add, coe_sum, EReal.coe_mul]

theorem rproj_eq_kproj (x : XT) (W : WT) (b : BT) (bt : Fin 4) (n : Fin 4096) (d : Fin 128) :
    rproj x W b bt n d = kproj x W b bt d n := by
  unfold rproj kproj
  congr 1
  exact Finset.sum_congr rfl fun c _ => mul_comm _ _

theorem rproj_coe (x : Fin 4 → Fin 128 → Fin 4096 → ℝ) (W : Fin 128 → Fin 128 → ℝ) (b : Fin 128 → ℝ)
    (bt : Fin 4) (n : Fin 4096) (d : Fin 128) :
    rproj (fun bt c n => ↑(x bt c n)) (fun d c => ↑(W d c)) (fun d => ↑(b d)) bt n d = ↑(projR x W b bt d n) := by
  rw [rproj_eq_kproj, kproj_coe]

/-- The kernel's quotient on real scores `t` and values `v`: a softmax-weighted mean shifted by some real `m`. -/
theorem kout_real (t : Fin 4096 → ℝ) (v : Fin 128 → Fin 4096 → ℝ) (d : Fin 128) :
    ∃ m : ℝ, fin (run4 (fun c j => ↑(t (pos c j))) (fun c e j => ↑(v e (pos c j)))) d
      = ↑((∑ n, Real.exp (t n - m) * v d n) / (∑ n, Real.exp (t n - m))) := by
  obtain ⟨m, hm⟩ := run4_coe (fun c j => t (pos c j)) (fun c e j => v e (pos c j))
  refine ⟨m, ?_⟩
  have hpos : (0 : ℝ) < ∑ c : Fin 4, ∑ j : Fin 1024, Real.exp (t (pos c j) - m) :=
    Finset.sum_pos (fun c _ => Finset.sum_pos (fun j _ => Real.exp_pos _) Finset.univ_nonempty) Finset.univ_nonempty
  rw [hm, fin_coe _ _ _ hpos.ne']
  rw [sum_chunks (fun n => Real.exp (t n - m) * v d n), sum_chunks (fun n => Real.exp (t n - m))]

/-- The reference's weighted sum on real scores `t` and values `v`, shifted by some real `M`. -/
theorem rout_real (t v : Fin 4096 → ℝ) :
    ∃ M : ℝ, (∑ j : Fin 4096,
        Ideal.div (Ideal.exp (↑(t j) - max NEG ((Finset.univ : Finset (Fin 4096)).fold max NEG (fun j => (t j : EReal)))))
          (ZERO + ∑ k : Fin 4096,
            Ideal.exp (↑(t k) - max NEG ((Finset.univ : Finset (Fin 4096)).fold max NEG (fun j => (t j : EReal))))) * ↑(v j))
      = ↑(∑ j, Real.exp (t j - M) * (1 / ∑ k, Real.exp (t k - M)) * v j) := by
  obtain ⟨M, hM⟩ := fold_coe t
  refine ⟨M, ?_⟩
  have hpos : (0 : ℝ) < ∑ k : Fin 4096, Real.exp (t k - M) :=
    Finset.sum_pos (fun j _ => Real.exp_pos _) Finset.univ_nonempty
  rw [hM]
  simp only [NEG_eq, ZERO_eq, max_bot_left, zero_add]
  simp only [← EReal.coe_sub, Ideal.exp_coe, ← coe_sum]
  simp only [Ideal.div_coe hpos.ne', ← EReal.coe_mul, ← coe_sum]

/-- On real inputs the two spellings agree. -/
theorem kout_eq_rout_real (x : Fin 4 → Fin 128 → Fin 4096 → ℝ) (Wq Wk Wv : Fin 128 → Fin 128 → ℝ) (bq bk bv : Fin 128 → ℝ)
    (bt : Fin 4) (d : Fin 128) (n : Fin 4096) :
    kout (fun bt c n => ↑(x bt c n)) (fun d c => ↑(Wq d c)) (fun d => ↑(bq d)) (fun d c => ↑(Wk d c)) (fun d => ↑(bk d))
        (fun d c => ↑(Wv d c)) (fun d => ↑(bv d)) bt d n
      = rout (fun bt c n => ↑(x bt c n)) (fun d c => ↑(Wq d c)) (fun d => ↑(bq d)) (fun d c => ↑(Wk d c)) (fun d => ↑(bk d))
        (fun d c => ↑(Wv d c)) (fun d => ↑(bv d)) bt d n := by
  obtain ⟨sc, hsc⟩ := SC_eq
  -- the real scores of query `n`, the kernel's way and the reference's way
  have hscore : ∀ j : Fin 4096, ∑ e : Fin 128, (projR x Wq bq bt e n * sc) * projR x Wk bk bt e j
      = (∑ e : Fin 128, projR x Wq bq bt e n * projR x Wk bk bt e j) * sc := by
    intro j; rw [Finset.sum_mul]; exact Finset.sum_congr rfl fun e _ => by ring
  obtain ⟨m, hk⟩ := kout_real (fun j => (∑ e : Fin 128, projR x Wq bq bt e n * projR x Wk bk bt e j) * sc)
    (fun e j => projR x Wv bv bt e j) d
  obtain ⟨M, hr⟩ := rout_real (fun j => (∑ e : Fin 128, projR x Wq bq bt e n * projR x Wk bk bt e j) * sc)
    (fun j => projR x Wv bv bt d j)
  have hK : kout (fun bt c n => ↑(x bt c n)) (fun d c => ↑(Wq d c)) (fun d => ↑(bq d)) (fun d c => ↑(Wk d c)) (fun d => ↑(bk d))
        (fun d c => ↑(Wv d c)) (fun d => ↑(bv d)) bt d n
      = ↑((∑ j, Real.exp ((∑ e : Fin 128, projR x Wq bq bt e n * projR x Wk bk bt e j) * sc - m) * projR x Wv bv bt d j)
          / (∑ j, Real.exp ((∑ e : Fin 128, projR x Wq bq bt e n * projR x Wk bk bt e j) * sc - m))) := by
    rw [← hk]
    unfold kout
    simp only [kproj_coe, hsc, ← EReal.coe_mul, ← coe_sum, hscore]
  have hR : rout (fun bt c n => ↑(x bt c n)) (fun d c => ↑(Wq d c)) (fun d => ↑(bq d)) (fun d c => ↑(Wk d c)) (fun d => ↑(bk d))
        (fun d c => ↑(Wv d c)) (fun d => ↑(bv d)) bt d n
      = ↑(∑ j, Real.exp ((∑ e : Fin 128, projR x Wq bq bt e n * projR x Wk bk bt e j) * sc - M)
          * (1 / ∑ k, Real.exp ((∑ e : Fin 128, projR x Wq bq bt e n * projR x Wk bk bt e k) * sc - M))
          * projR x Wv bv bt d j) := by
    rw [← hr]
    unfold rout rden rexp rmax rscore
    simp only [rproj_coe, hsc, ← EReal.coe_mul, ← coe_sum]
  rw [hK, hR, shift_inv Finset.univ Finset.univ_nonempty _ _ M m]

end Sm

open Sm in
/-- On finite inputs the kernel's spelling and the reference's spelling of attention agree at every index. -/
theorem kout_eq_rout (x : XT) (Wq : WT) (bq : BT) (Wk : WT) (bk : BT) (Wv : WT) (bv : BT)
    (hx : Fin3 x) (hWq : Fin2 Wq) (hbq : Fin1 bq) (hWk : Fin2 Wk) (hbk : Fin1 bk) (hWv : Fin2 Wv) (hbv : Fin1 bv)
    (bt : Fin 4) (d : Fin 128) (n : Fin 4096) :
    kout x Wq bq Wk bk Wv bv bt d n = rout x Wq bq Wk bk Wv bv bt d n := by
  have ex : x = fun bt c n => ((x bt c n).toReal : EReal) := by
    funext bt c n; exact (EReal.coe_toReal (hx bt c n).2 (hx bt c n).1).symm
  have e2 : ∀ W : WT, Fin2 W → W = fun d c => ((W d c).toReal : EReal) := fun W h => by
    funext d c; exact (EReal.coe_toReal (h d c).2 (h d c).1).symm
  have e1 : ∀ b : BT, Fin1 b → b = fun d => ((b d).toReal : EReal) := fun b h => by
    funext d; exact (EReal.coe_toReal (h d).2 (h d).1).symm
  rw [ex, e2 Wq hWq, e2 Wk hWk, e2 Wv hWv, e1 bq hbq, e1 bk hbk, e1 bv hbv]
  exact kout_eq_rout_real _ _ _ _ _ _ _ bt d n

end Cert.Attn

end
-- ==== Proof.Finite.lean ====
/-
  The precondition read back: every entry of every argument array is a finite number.

  The predicate is the conjunction, over the seven arrays, of `all (|a| < +∞)`. On the extended reals `|a| = max a (−a)`,
  and `max a (−a) < ⊤` rules out both infinities.
-/
import proofs.«402231_j36112085024790_3_alg».proof.Pre_finite_inputs
import proofs.«402231_j36112085024790_3_alg».proof.Proof.Spec
import Idealize.ShloMosaic.Lib.ReduceAll
import Idealize.ShloMosaic.PureOps.Ideal.Laws
import Idealize.ShloMosaic.Lib.ValueIdx

noncomputable section

namespace Cert.Pre_finite_inputs.Finite

open Idealize.ShloMosaic Idealize.ShloMosaic.ValueIdx Cert.Pre_finite_inputs

/-- The word `0x7F800000` is `+∞`. -/
theorem inf_eq : Ideal.ofBits .f32 0x7F800000#32 = ⊤ := by simp [Ideal.ofBits, Ideal.ieee]

/-- An extended real whose absolute value is below `+∞` is neither infinity. -/
theorem finite_of_abs_lt (x : EReal) (h : Ideal.cmp .olt (max x (-x)) (Ideal.ofBits .f32 0x7F800000#32) = 1#1) :
    x ≠ ⊥ ∧ x ≠ ⊤ := by
  rw [inf_eq] at h
  have hlt : max x (-x) < ⊤ := by
    by_contra hn
    simp [Ideal.cmp, hn] at h
  constructor
  · rintro rfl; simp at hlt
  · rintro rfl; simp at hlt

instance : Subsingleton S_.Idx := ⟨fun a b => funext fun d => d.elim0⟩

/-- One conjunct: `all (|a| < +∞)` gives every entry finite. -/
theorem all_finite {s : Shape} {axes : List (Fin s.rank)} (a bc : FVec Ideal s .f32)
    (hbc : ∀ i, bc i = Ideal.ofBits .f32 0x7F800000#32) (h : s.ReducesTo axes S_) (hu : 0 < S_.numel)
    (init : S_.Idx → BitVec 1)
    (e : Host.reduce IntOp.andi (cmpf .olt (Host.absf a) bc) init h hu ix0 = 1#1) (i : s.Idx) :
    a i ≠ ⊥ ∧ a i ≠ ⊤ := by
  have hi := Host.reduce_andi_all _ init h hu ix0 e i
  apply finite_of_abs_lt
  rw [← hbc i]
  exact hi

variable [Facts]

/-- THE PRECONDITION READ BACK. -/
theorem finite_of_pre (a0 : FVec Ideal S4x128x64x64 .f32) (a1 : FVec Ideal S128x128 .f32) (a2 : FVec Ideal S128 .f32)
    (a3 : FVec Ideal S128x128 .f32) (a4 : FVec Ideal S128 .f32) (a5 : FVec Ideal S128x128 .f32) (a6 : FVec Ideal S128 .f32)
    (h : fn (F := Ideal) a0 a1 a2 a3 a4 a5 a6 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ (∀ i, a3 i ≠ ⊥ ∧ a3 i ≠ ⊤)
    ∧ (∀ i, a4 i ≠ ⊥ ∧ a4 i ≠ ⊤) ∧ (∀ i, a5 i ≠ ⊥ ∧ a5 i ≠ ⊤) ∧ (∀ i, a6 i ≠ ⊥ ∧ a6 i ≠ ⊤) := by
  have h0 := congrFun h ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_finite a0 _ (fun _ => rfl) _ _ _ e0, all_finite a1 _ (fun _ => rfl) _ _ _ e1,
    all_finite a2 _ (fun _ => rfl) _ _ _ e2, all_finite a3 _ (fun _ => rfl) _ _ _ e3,
    all_finite a4 _ (fun _ => rfl) _ _ _ e4, all_finite a5 _ (fun _ => rfl) _ _ _ e5,
    all_finite a6 _ (fun _ => rfl) _ _ _ e6⟩

end Cert.Pre_finite_inputs.Finite

end
-- ==== Proof.Bridge.lean ====
/-
  The reference's result before its last reshape is, on finite inputs, the kernel's spelling of attention of the same
  arrays: the reference's own spelling (read off its program) equals the kernel's (the running softmax telescopes).
-/
import proofs.«402231_j36112085024790_3_alg».proof.Proof.RefValue
import proofs.«402231_j36112085024790_3_alg».proof.Proof.Softmax
import proofs.«402231_j36112085024790_3_alg».proof.Proof.Finite

noncomputable section

namespace Cert.Bridge

open Idealize.ShloMosaic Idealize.ShloMosaic.ValueIdx Cert.ReferenceIdeal

variable [Cert.Pre_finite_inputs.Facts]

/-- The kernel's spelling of attention as one array over (batch, channel, position). -/
def GK (a0 : S4x128x64x64.Idx → EReal) (a1 : S128x128.Idx → EReal) (a2 : S128.Idx → EReal) (a3 : S128x128.Idx → EReal)
    (a4 : S128.Idx → EReal) (a5 : S128x128.Idx → EReal) (a6 : S128.Idx → EReal) : S4x128x4096.Idx → EReal := fun idx =>
  Cert.Attn.kout (Cert.Attn.X3 a0) (Cert.Attn.M2 a1) (Cert.Attn.V1 a2) (Cert.Attn.M2 a3) (Cert.Attn.V1 a4)
    (Cert.Attn.M2 a5) (Cert.Attn.V1 a6) ⟨(idx 0).val, (idx 0).isLt⟩ ⟨(idx 1).val, (idx 1).isLt⟩ ⟨(idx 2).val, (idx 2).isLt⟩

/-- Under the precondition the reference's transposed result is that array. -/
theorem ref_eq (a0 : S4x128x64x64.Idx → EReal) (a1 : S128x128.Idx → EReal) (a2 : S128.Idx → EReal) (a3 : S128x128.Idx → EReal)
    (a4 : S128.Idx → EReal) (a5 : S128x128.Idx → EReal) (a6 : S128.Idx → EReal)
    (hfin : Cert.Pre_finite_inputs.fn (F := Ideal) a0 a1 a2 a3 a4 a5 a6 = fun _ => 1#1) :
    Read.val_main_v29 (F := Ideal) a0 a1 a2 a3 a4 a5 a6 = GK a0 a1 a2 a3 a4 a5 a6 := by
  obtain ⟨h0, h1, h2, h3, h4, h5, h6⟩ := Cert.Pre_finite_inputs.Finite.finite_of_pre a0 a1 a2 a3 a4 a5 a6 hfin
  funext idx
  obtain ⟨bt, d, n, rfl⟩ : ∃ (bt : Fin 4) (d : Fin 128) (n : Fin 4096), idx = ix3 bt d n := ⟨idx 0, idx 1, idx 2, eq_ix3 idx⟩
  rw [Cert.ReferenceIdeal.RefValue.ref_apply]
  exact (Cert.Attn.kout_eq_rout _ _ _ _ _ _ _ (fun _ _ _ => h0 _) (fun _ _ => h1 _) (fun _ => h2 _) (fun _ _ => h3 _)
    (fun _ => h4 _) (fun _ _ => h5 _) (fun _ => h6 _) bt d n).symm

end Cert.Bridge

end
-- ==== Proof.lean ====
/-
  Flash attention against plain softmax attention, over the extended reals.

  The kernel projects queries, keys and values by three 128 × 128 weight matrices, folds the scale `128^(-1/2)` into
  the queries, and treats each query row in four chunks of 1024 keys by the running-softmax recurrence (a running
  maximum, a running denominator and a running numerator, rescaled by `exp (m_old − m_new)` when the maximum moves),
  dividing once at the end; the keys and values of a batch are projected at the batch's first query tile and kept for
  its other tiles. The reference computes `softmax (q kᵀ · σ) v` outright. On finite inputs the two results are the
  same extended real at every index: the recurrence telescopes to `∑ⱼ exp (sⱼ − m) vⱼ / ∑ⱼ exp (sⱼ − m)`, a softmax does
  not depend on the shift `m`, and `∑ (q σ) k = (∑ q k) σ` on finite numbers.

  The three programs run and keep their arguments (the frames); the idealized kernel is the kernel's own text read on
  the extended reals (no rewrite to account for); and the two idealized programs end with equal results.
-/
import proofs.«402231_j36112085024790_3_alg».proof.Defs
import proofs.«402231_j36112085024790_3_alg».proof.Proof.Gen.Kernel
import proofs.«402231_j36112085024790_3_alg».proof.Proof.Gen.Kernel.Frame
import proofs.«402231_j36112085024790_3_alg».proof.Proof.Gen.KernelIdeal
import proofs.«402231_j36112085024790_3_alg».proof.Proof.Gen.KernelIdeal.Frame
import proofs.«402231_j36112085024790_3_alg».proof.Proof.Gen.ReferenceIdeal
import proofs.«402231_j36112085024790_3_alg».proof.Proof.Gen.ReferenceIdeal.Run
import proofs.«402231_j36112085024790_3_alg».proof.Proof.Gen.ReferenceIdeal.Read
import proofs.«402231_j36112085024790_3_alg».proof.Proof.Gen.Pre_finite_inputs
import proofs.«402231_j36112085024790_3_alg».proof.Proof.KernelFinal
import proofs.«402231_j36112085024790_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reshape of one array: the kernel's spelling of attention of the arguments. The kernel's
    run leaves it by the scratch invariant and the tiling of its sixteen blocks; the reference's result is its own
    spelling, which on finite inputs is the same number at every index. -/
theorem algebraic : Cert.algebraic_KernelIdeal_ReferenceIdeal := by
  intro m ρ m' ρ' hpre hagree
  refine ⟨_, Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2.1, (hagree c).2.2.2.2.2.2]
  unfold Cert.ReferenceIdeal.Read.val_main_v30
  rw [Cert.Bridge.ref_eq _ _ _ _ _ _ _ (hpre c)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
